-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S22544384 : Shape := ⟨1, ![22544384]⟩
abbrev S5636096 : Shape := ⟨1, ![5636096]⟩
abbrev S11008 : Shape := ⟨1, ![11008]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S5636096 : S_.BroadcastsInDim S5636096 (![] : Fin 0 → Fin S5636096.rank)
  reducesTo_S5636096_S_d0 : S5636096.ReducesTo [0] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S8x2048x4096 .f32) (main_arg1 : IVec S22544384 32) (main_arg2 : FVec F S5636096 .f32) (main_arg3 : FVec F S5636096 .f32) (main_arg4 : FVec F S11008 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S5636096 .f32 := Host.absf main_arg2
  let main_cst_0 : FVec F S_ .f32 := constant S_ .f32 0x7F800000#32
  let main_v5 : FVec F S5636096 .f32 := broadcastInDim S5636096 ![] bcast_S_S5636096 main_cst_0
  let main_v6 : IVec S5636096 1 := cmpf .olt main_v4 main_v5
  let main_c_1 : IVec S_ 1 := constantI S_ 1 1#1
  let main_v7 : IVec S_ 1 := (fun x v => Host.reduce IntOp.andi x v reducesTo_S5636096_S_d0 h_S_) main_v6 main_c_1
  let main_v8 : IVec S_ 1 := andi main_v3 main_v7
  let main_v9 : FVec F S5636096 .f32 := Host.absf main_arg3
  let main_cst_2 : FVec F S_ .f32 := constant S_ .f32 0x7F800000#32
  let main_v10 : FVec F S5636096 .f32 := broadcastInDim S5636096 ![] bcast_S_S5636096 main_cst_2
  let main_v11 : IVec S5636096 1 := cmpf .olt main_v9 main_v10
  let main_c_3 : IVec S_ 1 := constantI S_ 1 1#1
  let main_v12 : IVec S_ 1 := (fun x v => Host.reduce IntOp.andi x v reducesTo_S5636096_S_d0 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S8x2048x4096 : Shape := ⟨3, ![8, 2048, 4096]⟩
abbrev S22544384 : Shape := ⟨1, ![22544384]⟩
abbrev S5636096 : Shape := ⟨1, ![5636096]⟩
abbrev S11008 : Shape := ⟨1, ![11008]⟩
abbrev S11008x2048 : Shape := ⟨2, ![11008, 2048]⟩
abbrev S11008x512 : Shape := ⟨2, ![11008, 512]⟩
abbrev S11008x512x4 : Shape := ⟨3, ![11008, 512, 4]⟩
abbrev S128x2048 : Shape := ⟨2, ![128, 2048]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S_ : Shape := ⟨0, ![]⟩
abbrev S11264x4096 : Shape := ⟨2, ![11264, 4096]⟩
abbrev S11264 : Shape := ⟨1, ![11264]⟩
abbrev S16384x4096 : Shape := ⟨2, ![16384, 4096]⟩
abbrev S1x11264 : Shape := ⟨2, ![1, 11264]⟩
abbrev S16384x11264 : Shape := ⟨2, ![16384, 11264]⟩
abbrev S1024x1024 : Shape := ⟨2, ![1024, 1024]⟩
abbrev S1x1024 : Shape := ⟨2, ![1, 1024]⟩
abbrev S16384x11008 : Shape := ⟨2, ![16384, 11008]⟩
abbrev S8x2048x11008 : Shape := ⟨3, ![8, 2048, 11008]⟩

abbrev nBuf : Space → Nat
  | .hbm => 30
  | .vmem => 19
  | .smem => 0
  | _ => 0

abbrev bufTy : (tb : Table) → Fin (tcTables nBuf tb) → BufTy
  | .hbm, ⟨0, _⟩ => ⟨S8x2048x4096, .f32⟩
  | .hbm, ⟨1, _⟩ => ⟨S22544384, .i32⟩
  | .hbm, ⟨2, _⟩ => ⟨S5636096, .f32⟩
  | .hbm, ⟨3, _⟩ => ⟨S5636096, .f32⟩
  | .hbm, ⟨4, _⟩ => ⟨S11008, .f32⟩
  | .hbm, ⟨5, _⟩ => ⟨S11008x2048, .i32⟩
  | .hbm, ⟨6, _⟩ => ⟨S11008x512, .f32⟩
  | .hbm, ⟨7, _⟩ => ⟨S11008x512, .f32⟩
  | .hbm, ⟨8, _⟩ => ⟨S11008x512x4, .f32⟩
  | .hbm, ⟨9, _⟩ => ⟨S11008x2048, .f32⟩
  | .hbm, ⟨10, _⟩ => ⟨S11008x512x4, .f32⟩
  | .hbm, ⟨11, _⟩ => ⟨S11008x2048, .f32⟩
  | .hbm, ⟨12, _⟩ => ⟨S11008x2048, .bf16⟩
  | .hbm, ⟨13, _⟩ => ⟨S11008x2048, .bf16⟩
  | .hbm, ⟨14, _⟩ => ⟨S11008x2048x1, .bf16⟩
  | .hbm, ⟨15, _⟩ => ⟨S11008x2048x1, .bf16⟩
  | .hbm, ⟨16, _⟩ => ⟨S11008x2048x2, .bf16⟩
  | .hbm, ⟨17, _⟩ => ⟨S11008x4096, .bf16⟩
  | .hbm, ⟨18, _⟩ => ⟨S_, .i32⟩
  | .hbm, ⟨19, _⟩ => ⟨S_, .bf16⟩
  | .hbm, ⟨20, _⟩ => ⟨S11264x4096, .bf16⟩
  | .hbm, ⟨21, _⟩ => ⟨S_, .i32⟩
  | .hbm, ⟨22, _⟩ => ⟨S_, .f32⟩
  | .hbm, ⟨23, _⟩ => ⟨S11264, .f32⟩
  | .hbm, ⟨24, _⟩ => ⟨S16384x4096, .f32⟩
  | .hbm, ⟨25, _⟩ => ⟨S16384x4096, .bf16⟩
  | .hbm, ⟨26, _⟩ => ⟨S1x11264, .f32⟩
  | .hbm, ⟨27, _⟩ => ⟨S16384x11264, .f32⟩
  | .hbm, ⟨28, _⟩ => ⟨S16384x11008, .f32⟩
  | .hbm, ⟨29, _⟩ => ⟨S8x2048x11008, .f32⟩
  | .local _ .vmem, ⟨0, _⟩ => ⟨S128x2048, .i32⟩
  | .local _ .vmem, ⟨1, _⟩ => ⟨S128x2048, .i32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_v12 : Ref sig .tc := ⟨.hbm, 20, rfl⟩
abbrev main_c_0 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![86], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![16, 11, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S22544384_S11008x2048 : S22544384.ShapeCasts S11008x2048
  shapeCasts_S5636096_S11008x512 : S5636096.ShapeCasts S11008x512
  bcast_S11008x512_S11008x512x4_0_1 : S11008x512.BroadcastsInDim S11008x512x4 (![0, 1] : Fin 2 → Fin S11008x512x4.rank)
  shapeCasts_S11008x512x4_S11008x2048 : S11008x512x4.ShapeCasts S11008x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  bitsLt_bf16_f32 : FTy.bits .bf16 < FTy.bits .f32
  packedbf16_S128x2048_S128x2048_0_0 : (Rect.unit (s := S128x2048) ![0, 0] S128x2048.size inb_S128x2048_S128x2048_0_0).PackedRows (EltTy.packing .bf16)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  pads_S11008x4096_S11264x4096_02560_000 : S11008x4096.Pads (![0, 0] : Fin 2 → Nat) ![256, 0] ![0, 0] S11264x4096
  h_S_ : 0 < S_.numel
  pads_S11008_S11264_02560 : S11008.Pads (![0] : Fin 1 → Nat) ![256] ![0] S11264
  shapeCasts_S8x2048x4096_S16384x4096 : S8x2048x4096.ShapeCasts S16384x4096
  shapeCasts_S11264_S1x11264 : S11264.ShapeCasts S1x11264
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S16384x11264_S16384x11008_0_0 : S16384x11264.Slices ![0, 0] S16384x11008
  shapeCasts_S16384x11008_S8x2048x11008 : S16384x11008.ShapeCasts S8x2048x11008
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S11008x2048.size a
  hwx0_0 : ∀ i : grid0.Coords, EltTy.bits .i32 = 32 ∨ (Rect.block (s := S11008x2048) S128x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S11008x2048.size a
  hwx0_1 : ∀ i : grid0.Coords, EltTy.bits .f32 = 32 ∨ (Rect.block (s := S11008x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S11008x2048.size a
  hwx0_2 : ∀ i : grid0.Coords, EltTy.bits .f32 = 32 ∨ (Rect.block (s := S11008x2048) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S11008x2048.size a
  hwx0_3 : ∀ i : grid0.Coords, EltTy.bits .bf16 = 32 ∨ (Rect.block (s := S11008x2048) S128x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S11008x2048.size a
  hwx0_4 : ∀ i : grid0.Coords, EltTy.bits .bf16 = 32 ∨ (Rect.block (s := S11008x2048) S128x2048.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x4096.size a
  hwx1_0 : ∀ i : grid1.Coords, EltTy.bits .bf16 = 32 ∨ (Rect.block (s := S16384x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S11264x4096.size a
  hwx1_1 : ∀ i : grid1.Coords, EltTy.bits .bf16 = 32 ∨ (Rect.block (s := S11264x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x11264.size a
  hwx1_2 : ∀ i : grid1.Coords, EltTy.bits .f32 = 32 ∨ (Rect.block (s := S1x11264) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S16384x11264.size a
  hwx1_3 : ∀ i : grid1.Coords, EltTy.bits .f32 = 32 ∨ (Rect.block (s := S16384x11264) S1024x1024.size (cc1_transform_3 i) (hinb1_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S128x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S128x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S22544384 : Shape := ⟨1, ![22544384]⟩
abbrev S5636096 : Shape := ⟨1, ![5636096]⟩
abbrev S11008 : Shape := ⟨1, ![11008]⟩
abbrev S_ : Shape := ⟨0, ![]⟩
abbrev S22544384x1 : Shape := ⟨2, ![22544384, 1]⟩
abbrev S22544384x2 : Shape := ⟨2, ![22544384, 2]⟩
abbrev S45088768 : Shape := ⟨1, ![45088768]⟩
abbrev S5636096x8 : Shape := ⟨2, ![5636096, 8]⟩
abbrev S5636096x1 : Shape := ⟨2, ![5636096, 1]⟩
abbrev S11008x4096 : Shape := ⟨2, ![11008, 4096]⟩
abbrev S8x2048x11008 : Shape := ⟨3, ![8, 2048, 11008]⟩
abbrev S1x1x11008 : Shape := ⟨3, ![1, 1, 11008]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S22544384, .i32⟩
  | .hbm, ⟨2, _⟩ => ⟨S5636096, .f32⟩
  | .hbm, ⟨3, _⟩ => ⟨S5636096, .f32⟩
  | .hbm, ⟨4, _⟩ => ⟨S11008, .f32⟩
  | .hbm, ⟨5, _⟩ => ⟨S_, .i32⟩
  | .hbm, ⟨6, _⟩ => ⟨S22544384, .i32⟩
  | .hbm, ⟨7, _⟩ => ⟨S22544384, .i32⟩
  | .hbm, ⟨8, _⟩ => ⟨S_, .i32⟩
  | .hbm, ⟨9, _⟩ => ⟨S22544384, .i32⟩
  | .hbm, ⟨10, _⟩ => ⟨S22544384, .i32⟩
  | .hbm, ⟨11, _⟩ => ⟨S_, .i32⟩
  | .hbm, ⟨12, _⟩ => ⟨S22544384, .i32⟩
  | .hbm, ⟨13, _⟩ => ⟨S22544384, .i32⟩
  | .hbm, ⟨14, _⟩ => ⟨S22544384x1, .i32⟩
  | .hbm, ⟨15, _⟩ => ⟨S22544384x1, .i32⟩
  | .hbm, ⟨16, _⟩ => ⟨S22544384x2, .i32⟩
  | .hbm, ⟨17, _⟩ => ⟨S45088768, .i32⟩
  | .hbm, ⟨18, _⟩ => ⟨S5636096x8, .i32⟩
  | .hbm, ⟨19, _⟩ => ⟨S5636096x8, .f32⟩
  | .hbm, ⟨20, _⟩ => ⟨S5636096x1, .f32⟩
  | .hbm, ⟨21, _⟩ => ⟨S5636096x8, .f32⟩
  | .hbm, ⟨22, _⟩ => ⟨S5636096x8, .f32⟩
  | .hbm, ⟨23, _⟩ => ⟨S5636096x1, .f32⟩
  | .hbm, ⟨24, _⟩ => ⟨S5636096x8, .f32⟩
  | .hbm, ⟨25, _⟩ => ⟨S5636096x8, .f32⟩
  | .hbm, ⟨26, _⟩ => ⟨S45088768, .f32⟩
  | .hbm, ⟨27, _⟩ => ⟨S11008x4096, .f32⟩
  | .hbm, ⟨28, _⟩ => ⟨S8x2048x11008, .f32⟩
  | .hbm, ⟨29, _⟩ => ⟨S1x1x11008, .f32⟩
  | .hbm, ⟨30, _⟩ => ⟨S8x2048x11008, .f32⟩
  | .hbm, ⟨31, _⟩ => ⟨S8x2048x11008, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S_S22544384 : S_.BroadcastsInDim S22544384 (![] : Fin 0 → Fin S22544384.rank)
  bcast_S22544384_S22544384x1_0 : S22544384.BroadcastsInDim S22544384x1 (![0] : Fin 1 → Fin S22544384x1.rank)
  concatenates_S22544384x1_S22544384x1_S22544384x2_d1 : Shape.Concatenates [S22544384x1, S22544384x1] S22544384x2 1
  shapeCasts_S22544384x2_S45088768 : S22544384x2.ShapeCasts S45088768
  shapeCasts_S45088768_S5636096x8 : S45088768.ShapeCasts S5636096x8
  bcast_S5636096_S5636096x1_0 : S5636096.BroadcastsInDim S5636096x1 (![0] : Fin 1 → Fin S5636096x1.rank)
  bcast_S5636096x1_S5636096x8_0_1 : S5636096x1.BroadcastsInDim S5636096x8 (![0, 1] : Fin 2 → Fin S5636096x8.rank)
  shapeCasts_S5636096x8_S45088768 : S5636096x8.ShapeCasts S45088768
  shapeCasts_S45088768_S11008x4096 : S45088768.ShapeCasts S11008x4096
  bcast_S11008_S1x1x11008_2 : S11008.BroadcastsInDim S1x1x11008 (![2] : Fin 1 → Fin S1x1x11008.rank)
  bcast_S1x1x11008_S8x2048x11008_0_1_2 : S1x1x11008.BroadcastsInDim S8x2048x11008 (![0, 1, 2] : Fin 3 → Fin S8x2048x11008.rank)
  dot_S8x2048x4096_S11008x4096_S8x2048x11008_2_1_01_0_n_n_wf : DotDims.WF S8x2048x4096 S11008x4096 S8x2048x11008 [2] [1] [0, 1] [0] [] []

variable [Facts₀]

def dot_S8x2048x4096_S11008x4096_S8x2048x11008_2_1_01_0_n_n : DotDims S8x2048x4096 S11008x4096 S8x2048x11008 where
  lhsContracting := [2]
  rhsContracting := [1]
  lhsNonContracting := [0, 1]
  rhsNonContracting := [0]
  lhsBatch := []
  rhsBatch := []
  wf := dot_S8x2048x4096_S11008x4096_S8x2048x11008_2_1_01_0_n_n_wf

class Facts : Prop extends Facts₀ where

variable [Facts]
-- ==== Proof.K.Reg0.lean ====
/-
  The first call of the program: the dequantization of one band of 128 weight rows. At a grid point the body reads
  three whole blocks (the packed words, the scales and the offsets of the band, each 128 by 2048) and writes two whole
  blocks: the low nibbles and the high nibbles, each converted, scaled and shifted. Stated at an arbitrary content V
  of the buffers at the call's entry: what each block is, what the body leaves in every staging buffer, and that the
  body, run at any grid point on those contents, leaves exactly that.
-/
import proofs.«429469_j24721831756576_3_alg».proof.Proof.Gen.Kernel.Launch
import proofs.«429469_j24721831756576_3_alg».proof.Proof.Gen.Kernel.Skeleton
import proofs.«429469_j24721831756576_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The block of window `w` at grid point `t`: the band of its array the point's index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds the point's block whenever the body is entered, whether the block was fetched at
    this point or is still the one fetched earlier. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

/-- Every access of the body is the whole 128 by 2048 block. -/
abbrev r0_0 : Rect S128x2048 := Rect.unit (s := S128x2048) ![0, 0] S128x2048.size inb_S128x2048_S128x2048_0_0

/-- The low-nibble block after the body: one store of the whole block, its value a function of the three input blocks. -/
def out0_3 (x0 : Vec F S128x2048 .i32) (x1 : Vec F S128x2048 .f32) (x2 : Vec F S128x2048 .f32) : Vec F S128x2048 .bf16 :=
  View.canon [⟨r0_0, k0_pay4 (View.ld x0 r0_0) (View.ld x1 r0_0) (View.ld x2 r0_0)⟩]

/-- The high-nibble block after the body, likewise. -/
def out0_4 (x0 : Vec F S128x2048 .i32) (x1 : Vec F S128x2048 .f32) (x2 : Vec F S128x2048 .f32) : Vec F S128x2048 .bf16 :=
  View.canon [⟨r0_0, k0_pay5 (View.ld x0 r0_0) (View.ld x1 r0_0) (View.ld x2 r0_0)⟩]

/-- One whole-block store covers the block. -/
theorem cover0 (p0 : Vec F S128x2048 .bf16) (y : S128x2048.Idx) :
    ∃ pc ∈ ([⟨r0_0, p0⟩] : List (View.Piece (Elt F) S128x2048 .bf16)), y ∈ pc.1.set :=
  View.cover_of_tiled [⟨r0_0, p0⟩] S128x2048.size (by rfl) y

/-! ## The body's run -/

set_option maxHeartbeats 1000000 in
/-- On whole staging buffers, the three inputs' holding `x0`, `x1`, `x2` and the two outputs' holding anything, the
    body runs to its end, leaves the inputs as they were and the outputs at `out0_3` and `out0_4` of the inputs. -/
theorem sound_kernel0 (c : Dev nD) (E : Set ℕ) (i : grid0.Coords)
    (arg1 : Memref sig .tc .vmem S128x2048 .i32) (harg1 : arg1.IsWhole) (arg2 : Memref sig .tc .vmem S128x2048 .f32) (harg2 : arg2.IsWhole)
    (arg3 : Memref sig .tc .vmem S128x2048 .f32) (harg3 : arg3.IsWhole) (arg4 : Memref sig .tc .vmem S128x2048 .bf16) (harg4 : arg4.IsWhole)
    (arg5 : Memref sig .tc .vmem S128x2048 .bf16) (harg5 : arg5.IsWhole)
    (x0 : Vec F S128x2048 .i32) (x1 : Vec F S128x2048 .f32) (x2 : Vec F S128x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__dequant_kernel i arg1 harg1 arg2 harg2 arg3 harg3 arg4 harg4 arg5 harg5) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The call's data: arrays, what each point leaves, the invariant -/

/-- The arrays are those found at the call's entry; after the body an input's buffer still holds its block and an
    output's holds the body's function of the input blocks; between points nothing else is kept. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body at a grid point -/

/-- What the body is entered with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation to the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Calls

end
-- ==== Proof.K.Reg1Runs.lean ====
/-
  The second call of the program: the matrix product, tiled 16 by 11 by 4 with the contraction axis innermost. What the
  three runs of its body share: the blocks, when each of the body's two conditionals is taken (the first at the first
  step of a contraction, the second at its last), where the output window is left untouched, and the names of the
  staging buffers and of the accumulator the body keeps between grid points.
-/
import proofs.«429469_j24721831756576_3_alg».proof.Proof.Gen.Kernel.Launch
import proofs.«429469_j24721831756576_3_alg».proof.Proof.Gen.Kernel.Skeleton
import proofs.«429469_j24721831756576_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The block of window `w` at grid point `t`: the tile of its array the point's index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds the point's block whenever the body is entered: fetched at this point, or still
    there from the last point that fetched it (the bias row is fetched once per contraction). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditionals, over the grid -/

/-- The first conditional (the accumulator is zeroed): taken when the contraction coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional (the output block is written): taken when the contraction coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are left untouched -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the first step of a contraction the output window is untouched, and not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At the middle steps likewise. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last step the body stores into it. -/
theorem liveAt1_3_C : ∀ t : Fin cfg1.N, ¬cond1_0 (grid1.coords t) → cond1_1 (grid1.coords t) → cfg1.idle 3 (grid1.coords t) = false := by decide +kernel

/-! ## The staging buffers and the accumulator -/

/-- One staging buffer of the output window, through which its contents are stated. -/
abbrev VO1_3 : View sig .tc .vmem S1024x1024 .f32 := (Memref.whole cc1_stg3_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole buffer of the call's own, kept from one grid point to the next. -/
abbrev scM1_0 : Memref sig .tc .vmem S1024x1024 .f32 := Memref.whole cc1_scratch0
abbrev VS1_0 : View sig .tc .vmem S1024x1024 .f32 := scM1_0.view

/-- Every other buffer of the core that is no staging buffer of this call, at some contents: the first call's
    staging buffers, which this call never opens. -/
abbrev others1 (c : Dev nD) : sProp 𝕄 :=
  Pipeline.scopedRestBut (Ix := Unit) (Name := ℕ) (U := UR sig nD τ) (Lvl := ℕ) (Val := Elt F) spec1 c [cc1_scratch0]

/-- What the call holds besides its windows, with the accumulator set apart. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [bigSepL_singleton, scM1_0, owns_whole]; try rfl

end Cert.Kernel.Calls

end
-- ==== Proof.K.Reg1RunA.lean ====
/-
  The matrix-product body run at the first step of a contraction (the accumulator is zeroed, then receives the first partial product): on whole staging buffers holding the point's blocks, the body runs to its
  end, hands every input back as it found it, and leaves in the accumulator exactly the stores it made,
  recorded as a list of rectangles with their values, the last store first.
-/
import proofs.«429469_j24721831756576_3_alg».proof.Proof.K.Reg1Runs
set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Calls

end
-- ==== Proof.K.Reg1RunB.lean ====
/-
  The matrix-product body run at a middle step of a contraction (the accumulator, holding what the step before left, receives one more partial product): on whole staging buffers holding the point's blocks, the body runs to its
  end, hands every input back as it found it, and leaves in the accumulator exactly the stores it made,
  recorded as a list of rectangles with their values, the last store first.
-/
import proofs.«429469_j24721831756576_3_alg».proof.Proof.K.Reg1RunA
set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Calls

end
-- ==== Proof.K.Reg1RunC.lean ====
/-
  The matrix-product body run at the last step of a contraction (the accumulator receives the last partial product; the output block is the accumulator plus the bias row): on whole staging buffers holding the point's blocks, the body runs to its
  end, hands every input back as it found it, and leaves in the accumulator and in the output block exactly the stores it made,
  recorded as a list of rectangles with their values, the last store first.
-/
import proofs.«429469_j24721831756576_3_alg».proof.Proof.K.Reg1RunB
set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Calls

end
-- ==== Proof.K.Reg1.lean ====
/-
  The matrix-product call, point by point. The grid runs the contraction axis innermost, four steps per output tile.
  The accumulator is carried from one grid point to the next: after a point it holds what that point's case of the
  body left in it, computed from the point's blocks and, past the first step of a contraction, from what the point
  before left. The output block is written at the last step of each contraction only, and is untouched (and not
  written back) at the others. Stated at an arbitrary content V of the buffers at the call's entry: the contents
  after each point, the invariant that carries the accumulator between points, and that the body at any grid point,
  entered with the invariant and the point's blocks, leaves exactly these contents.
-/
import proofs.«429469_j24721831756576_3_alg».proof.Proof.K.Reg1RunC
set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case of the body leaves -/

/-! ### First step of a contraction -/
/-- The output block after the body in this case: its recorded stores read back (none: the block is untouched at these points and nothing reads this value). -/
def out1_A_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- The stores into the accumulator cover it. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- The accumulator after the body in this case: its recorded stores read back. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-! ### Middle steps -/
/-- The output block after the body in this case: its recorded stores read back (none: the block is untouched at these points and nothing reads this value). -/
def out1_B_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- The stores into the accumulator cover it. -/
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- The accumulator after the body in this case: its recorded stores read back. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-! ### Last step -/
/-- In this case the one store into the output block covers it. -/
theorem cover1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- The output block after the body in this case: its recorded stores read back. -/
def out1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- The stores into the accumulator cover it. -/
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- The accumulator after the body in this case: its recorded stores read back. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## The contents after each point -/

/-- After the body at position `n`: the output block and the accumulator, by the case the position is in (its
    remainder mod 4), over what the position before left in the accumulator. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point: the accumulator at anything. After position `n`: the accumulator at what that position
    left. Beside it, always, the other buffers this call never opens and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The call's data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body at a grid point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold the point's blocks; the position's remainder mod 4 says which case
    the body is in; the invariant hands over the accumulator at what the position before left (at anything at the very
    first point) and takes it back at this position's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 704 := lt_of_lt_of_eq t.isLt (show cfg1.N = 704 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

/-- The body's obligation to the pipeline, at every point. -/
theorem body_obligation1 (c : Dev nD) : BodyObligation (dat1 (F := F) V c) (defs₀ (F := F)) Variants.none () Set.univ := fun t => by
  rw [bigSep_W1, bigSep_W1]
  exact sound_body1 V c t

/-- What the call is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the same back, the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 704 := N_1; omega)

end Cert.Kernel.Calls

end
-- ==== Proof.K.Run.lean ====
/-
  The whole program as one run. The buffers' contents at every boundary of @main are a fold from the launch memory:
  a stretch of host operations applies those operations; a kernel call leaves its arrays at what its write-backs
  produce and every other buffer as it was. Each call is entered from the contents the stretch before it left and
  is left at the contents the stretch after it starts from, so the nine segments chain, and the run ends with every
  buffer outside the kernels' own at the last boundary's contents.
-/
import proofs.«429469_j24721831756576_3_alg».proof.Proof.K.Reg0
import proofs.«429469_j24721831756576_3_alg».proof.Proof.K.Reg1
import proofs.«429469_j24721831756576_3_alg».proof.Proof.Gen.Kernel.Regions
set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
/-- The same read at the TensorCore's references: what the first call is entered with. -/
abbrev E1 : (c : Dev nD) → (b : Ref sig .tc) → Buf (Elt F) ((c : Thread nD τ).loc b) := fun c b => W1 m ρ c b
/-- At call 0's exit: its arrays at what its write-backs leave, every other buffer as at its entry. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev X2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = E1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)
/-- What the second call is entered with. -/
abbrev E7 : (c : Dev nD) → (b : Ref sig .tc) → Buf (Elt F) ((c : Thread nD τ).loc b) := fun c b => W7 m ρ c b
/-- At call 1's exit: its arrays at what its write-backs leave, every other buffer as at its entry. -/
def W8 (c : Dev nD) : Valuation τ sig (Elt F) :=
  Pipeline.withArrays spec1 c (W7 m ρ c) fun w => (dat1 (E7 m ρ) c).arrAt w cfg1.N
theorem W8_arr (c : Dev nD) (w : Fin cfg1.W) :
    W8 m ρ c (Proc.devRef .tc (Pipeline.arrRef spec1 w)) = (dat1 (E7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev X8 : (c : Dev nD) → (b : Ref sig .tc) → Buf (Elt F) ((c : Thread nD τ).loc b) := fun c b => W8 m ρ c b
theorem hF1 (c : Dev nD) (w : Fin cfg1.W) : (dat1 (E7 m ρ) c).arrAt w cfg1.N = X8 m ρ c (Pipeline.arrRef spec1 w) :=
  (W8_arr m ρ c w).symm
theorem hrest1 (c : Dev nD) : ∀ b, b ∉ Finset.univ.image (Pipeline.arrRef spec1) → X8 m ρ c b = E7 m ρ c b :=
  fun b hb => W8_of_ne m ρ c b fun w e => hb (Finset.mem_image.mpr ⟨w, Finset.mem_univ _, e⟩)

abbrev W9 : Dev nD → Valuation τ sig (Elt F) := fun c => StableHlo.after hostOps2 (W8 m ρ c)

/-- A buffer that no host operation writes and that is no array of either call ends as launched. -/
theorem W9_of (c : Dev nD) (r : Ref sig .tc) (h0 : r ∉ hostOps0_W) (a0 : ∀ w, Pipeline.arrRef spec0 w ≠ r) (h1 : r ∉ hostOps1_W)
    (h11 : r ∉ hostOps1_1_W) (h12 : r ∉ hostOps1_2_W) (h13 : r ∉ hostOps1_3_W) (h14 : r ∉ hostOps1_4_W)
    (a1 : ∀ w, Pipeline.arrRef spec1 w ≠ r) (h2 : r ∉ hostOps2_W) :
    W9 m ρ c (Proc.devRef .tc r) = m ((c : Thread nD τ).loc r) :=
  (StableHlo.after_of_writes_sub hostOps2 _ hostOps2_writes h2).trans <|
  (W8_of_ne m ρ c r a1).trans <|
  (StableHlo.after_of_writes_sub hostOps1_4 _ hostOps1_4_writes h14).trans <|
  (StableHlo.after_of_writes_sub hostOps1_3 _ hostOps1_3_writes h13).trans <|
  (StableHlo.after_of_writes_sub hostOps1_2 _ hostOps1_2_writes h12).trans <|
  (StableHlo.after_of_writes_sub hostOps1_1 _ hostOps1_1_writes h11).trans <|
  (StableHlo.after_of_writes_sub hostOps1 _ hostOps1_writes h1).trans <|
  (W2_of_ne m ρ c r a0).trans <|
  (StableHlo.after_of_writes_sub hostOps0 _ hostOps0_writes h0).trans rfl

theorem W9_main_arg0 (c : Dev nD) : W9 m ρ c (Proc.devRef .tc main_arg0) = m ((c : Thread nD τ).loc main_arg0) :=
  W9_of m ρ c main_arg0 (by decide) (by decide) (by decide) (by decide) (by decide) (by decide) (by decide) (by decide) (by decide)
theorem W9_main_arg1 (c : Dev nD) : W9 m ρ c (Proc.devRef .tc main_arg1) = m ((c : Thread nD τ).loc main_arg1) :=
  W9_of m ρ c main_arg1 (by decide) (by decide) (by decide) (by decide) (by decide) (by decide) (by decide) (by decide) (by decide)
theorem W9_main_arg2 (c : Dev nD) : W9 m ρ c (Proc.devRef .tc main_arg2) = m ((c : Thread nD τ).loc main_arg2) :=
  W9_of m ρ c main_arg2 (by decide) (by decide) (by decide) (by decide) (by decide) (by decide) (by decide) (by decide) (by decide)
theorem W9_main_arg3 (c : Dev nD) : W9 m ρ c (Proc.devRef .tc main_arg3) = m ((c : Thread nD τ).loc main_arg3) :=
  W9_of m ρ c main_arg3 (by decide) (by decide) (by decide) (by decide) (by decide) (by decide) (by decide) (by decide) (by decide)
theorem W9_main_arg4 (c : Dev nD) : W9 m ρ c (Proc.devRef .tc main_arg4) = m ((c : Thread nD τ).loc main_arg4) :=
  W9_of m ρ c main_arg4 (by decide) (by decide) (by decide) (by decide) (by decide) (by decide) (by decide) (by decide) (by decide)

/-! ## The two calls' data together, and what rides beside the buffers -/

abbrev kadm : (p : Fin 2) → (pcfgs (F := F) p).Adm := fun p => (cfgs p).toPCfg_adm
def kpdats : (p : Fin 2) → (c : Dev nD) → Dat τ (Elt F) Unit ℕ (UR sig nD τ) ℕ (Pipeline.pin (pcfgs (F := F)) kadm p) c
  | ⟨0, _⟩ => fun c => dat0 (E1 m ρ) c
  | ⟨1, _⟩ => fun c => dat1 (E7 m ρ) c
abbrev k𝒱 : Variants := Variants.none
abbrev kL : GSem nD τ sig → Finset Unit := fun _ => ∅
abbrev klv : GSem nD τ sig → Unit → ℕ := fun _ _ => 0
/-- Beside the buffers: the generator register at some state, and nothing owed. -/
abbrev kR (c : Dev nD) : sProp 𝕄 := iprop((∃ r, prngReg c r) ∗ ∃ W, owes (c : Thread nD τ) (0 : CellTallies nD τ sig Unit) W)
abbrev khseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ k𝒱 kL klv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W kR

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last boundary without what is owed: every buffer outside the kernels' own at the last contents, and the
    generator register. -/
abbrev kTₙ (c : Dev nD) : sProp 𝕄 := iprop(StableHlo.held (c : Thread nD τ) (Pipeline.ucRefs τ sig) (W9 m ρ c) ∗ ∃ r, prngReg c r)

/-! ## The calls as segments -/

-- unification against the pinned configuration needs plain definitions unfolded inside a metavariable's type
set_option backward.isDefEq.respectTransparency.types false in
def kreg0 : Pipeline.RegionSeg (pcfgs (F := F)) kadm (kpdats m ρ) () defs₀ k𝒱 kL klv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ kL klv 0 fun _ _ => rfl
  pre c := iprop(StableHlo.held (c : Thread nD τ) (Pipeline.ucRefs τ sig) (W1 m ρ c) ∗ kR c)
  post c := iprop(StableHlo.held (c : Thread nD τ) (Pipeline.ucRefs τ sig) (W2 m ρ c) ∗ kR c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) kadm (kpdats m ρ) launch0.win launch0.arr_whole c
      ((kpdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (kpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) kadm (Ix := Unit) (Name := ℕ) (U := UR sig nD τ) (Lvl := ℕ)
      launch0.win launch0.arr_whole c (kpdats m ρ) ((kpdats m ρ 0 c).share_full fun _ => rfl)
      (E1 m ρ c) (X2 m ρ c) ((kpdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification against the pinned configuration needs plain definitions unfolded inside a metavariable's type
set_option backward.isDefEq.respectTransparency.types false in
def kreg1 : Pipeline.RegionSeg (pcfgs (F := F)) kadm (kpdats m ρ) () defs₀ k𝒱 kL klv 1 where
  win := launch1.win.to₀
  block_pos := launch1.block_pos
  stage_whole := launch1.stage_whole
  K := PEmpty
  osem k := k.elim
  ho := Pipeline.OwnSemFacts.none _
  hbody c := (body_obligation1 (E7 m ρ) c).loose
  hwaits := Pipeline.hwaits_of_owed_zero _ _ _ _ kL klv 1 fun _ _ => rfl
  pre c := iprop(StableHlo.held (c : Thread nD τ) (Pipeline.ucRefs τ sig) (W7 m ρ c) ∗ kR c)
  post c := iprop(StableHlo.held (c : Thread nD τ) (Pipeline.ucRefs τ sig) (W8 m ρ c) ∗ kR c)
  X c := iprop(∃ r, prngReg c r)
  Y c := iprop(∃ r, prngReg c r)
  Z c := Pipeline.unscopedRest (Ix := Unit) (Name := ℕ) (U := UR sig nD τ) (Lvl := ℕ) spec1 c (E7 m ρ c)
  hentry c := by
    rw [Pipeline.ownSems0_none]
    have hsplit := Pipeline.arrays_of_unscopedBufs (p := 1) (pcfgs (F := F)) kadm (kpdats m ρ) launch1.win launch1.arr_whole c
      ((kpdats m ρ 1 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (kpdats m ρ 1 c).Φ 0 := hin1 (E7 m ρ) c
    unfold Pipeline.ΦA at h
    iintro ⟨Hp, -, Hr⟩
    iapply h
    isplitl [Hr]; · iexact Hr
    iexact Hp
  hout c := by
    rw [Pipeline.ownSems0_none]
    have h : (kpdats m ρ 1 c).Φ (Fin.last _) ⊢ (Pipeline.ΦA spec1 c : sProp 𝕄) := hout1 (E7 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) kadm (Ix := Unit) (Name := ℕ) (U := UR sig nD τ) (Lvl := ℕ)
      launch1.win launch1.arr_whole c (kpdats m ρ) ((kpdats m ρ 1 c).share_full fun _ => rfl)
      (E7 m ρ c) (X8 m ρ c) ((kpdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its segments, and the run -/

abbrev ksegs : List (Pipeline.Seg (pcfgs (F := F)) kadm (kpdats m ρ) () defs₀ k𝒱 kL klv) :=
  [ .host (khseg hostOps0 hostOps0_sub hostOps0_fresh (W0 m ρ)),
    .region (kreg0 m ρ),
    .host (khseg hostOps1 hostOps1_sub hostOps1_fresh (W2 m ρ)),
    .host (khseg hostOps1_1 hostOps1_1_sub hostOps1_1_fresh (W3 m ρ)),
    .host (khseg hostOps1_2 hostOps1_2_sub hostOps1_2_fresh (W4 m ρ)),
    .host (khseg hostOps1_3 hostOps1_3_sub hostOps1_3_fresh (W5 m ρ)),
    .host (khseg hostOps1_4 hostOps1_4_sub hostOps1_4_fresh (W6 m ρ)),
    .region (kreg1 m ρ),
    .host (khseg hostOps2 hostOps2_sub hostOps2_fresh (W8 m ρ)) ]

theorem main_run (c : Dev nD) : main (F := F) c = Pipeline.Seg.run (ksegs m ρ) := (main_chain c).trans (by chain_rfl)

set_option backward.isDefEq.respectTransparency.types false in
/-- From any memory with zero counters every weakly fair execution of @main terminates, nothing faulting, and the final
    memory holds every buffer outside the kernels' own at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) kadm (kpdats m ρ) () cellOf_inj emb₁ defs₀ k𝒱 kL klv m ρ main (ksegs m ρ)
    (fun c Q => by rw [main_run m ρ c])
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ kR c)) (Tₙ := kTₙ m ρ)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (StableHlo.after hostOps2 (W8 m ρ c)) ∗ kR c)
          ⊢ iprop(kTₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach kL klv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The frame: the five argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c)⟩) (run_all m ρ)

end Cert.Kernel.Calls

end
-- ==== Proof.KI.Reg0.lean ====
/-
  The first call of the program: the dequantization of one band of 128 weight rows. At a grid point the body reads
  three whole blocks (the packed words, the scales and the offsets of the band, each 128 by 2048) and writes two whole
  blocks: the low nibbles and the high nibbles, each converted, scaled and shifted. Stated at an arbitrary content V
  of the buffers at the call's entry: what each block is, what the body leaves in every staging buffer, and that the
  body, run at any grid point on those contents, leaves exactly that.
-/
import proofs.«429469_j24721831756576_3_alg».proof.Proof.Gen.KernelIdeal.Launch
import proofs.«429469_j24721831756576_3_alg».proof.Proof.Gen.KernelIdeal.Skeleton
import proofs.«429469_j24721831756576_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The block of window `w` at grid point `t`: the band of its array the point's index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds the point's block whenever the body is entered, whether the block was fetched at
    this point or is still the one fetched earlier. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

/-- Every access of the body is the whole 128 by 2048 block. -/
abbrev r0_0 : Rect S128x2048 := Rect.unit (s := S128x2048) ![0, 0] S128x2048.size inb_S128x2048_S128x2048_0_0

/-- The low-nibble block after the body: one store of the whole block, its value a function of the three input blocks. -/
def out0_3 (x0 : Vec F S128x2048 .i32) (x1 : Vec F S128x2048 .f32) (x2 : Vec F S128x2048 .f32) : Vec F S128x2048 .bf16 :=
  View.canon [⟨r0_0, k0_pay4 (View.ld x0 r0_0) (View.ld x1 r0_0) (View.ld x2 r0_0)⟩]

/-- The high-nibble block after the body, likewise. -/
def out0_4 (x0 : Vec F S128x2048 .i32) (x1 : Vec F S128x2048 .f32) (x2 : Vec F S128x2048 .f32) : Vec F S128x2048 .bf16 :=
  View.canon [⟨r0_0, k0_pay5 (View.ld x0 r0_0) (View.ld x1 r0_0) (View.ld x2 r0_0)⟩]

/-- One whole-block store covers the block. -/
theorem cover0 (p0 : Vec F S128x2048 .bf16) (y : S128x2048.Idx) :
    ∃ pc ∈ ([⟨r0_0, p0⟩] : List (View.Piece (Elt F) S128x2048 .bf16)), y ∈ pc.1.set :=
  View.cover_of_tiled [⟨r0_0, p0⟩] S128x2048.size (by rfl) y

/-! ## The body's run -/

set_option maxHeartbeats 1000000 in
/-- On whole staging buffers, the three inputs' holding `x0`, `x1`, `x2` and the two outputs' holding anything, the
    body runs to its end, leaves the inputs as they were and the outputs at `out0_3` and `out0_4` of the inputs. -/
theorem sound_kernel0 (c : Dev nD) (E : Set ℕ) (i : grid0.Coords)
    (arg1 : Memref sig .tc .vmem S128x2048 .i32) (harg1 : arg1.IsWhole) (arg2 : Memref sig .tc .vmem S128x2048 .f32) (harg2 : arg2.IsWhole)
    (arg3 : Memref sig .tc .vmem S128x2048 .f32) (harg3 : arg3.IsWhole) (arg4 : Memref sig .tc .vmem S128x2048 .bf16) (harg4 : arg4.IsWhole)
    (arg5 : Memref sig .tc .vmem S128x2048 .bf16) (harg5 : arg5.IsWhole)
    (x0 : Vec F S128x2048 .i32) (x1 : Vec F S128x2048 .f32) (x2 : Vec F S128x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__dequant_kernel i arg1 harg1 arg2 harg2 arg3 harg3 arg4 harg4 arg5 harg5) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The call's data: arrays, what each point leaves, the invariant -/

/-- The arrays are those found at the call's entry; after the body an input's buffer still holds its block and an
    output's holds the body's function of the input blocks; between points nothing else is kept. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body at a grid point -/

/-- What the body is entered with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation to the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Calls

end
-- ==== Proof.KI.Reg1Runs.lean ====
/-
  The second call of the program: the matrix product, tiled 16 by 11 by 4 with the contraction axis innermost. What the
  three runs of its body share: the blocks, when each of the body's two conditionals is taken (the first at the first
  step of a contraction, the second at its last), where the output window is left untouched, and the names of the
  staging buffers and of the accumulator the body keeps between grid points.
-/
import proofs.«429469_j24721831756576_3_alg».proof.Proof.Gen.KernelIdeal.Launch
import proofs.«429469_j24721831756576_3_alg».proof.Proof.Gen.KernelIdeal.Skeleton
import proofs.«429469_j24721831756576_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- The block of window `w` at grid point `t`: the tile of its array the point's index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds the point's block whenever the body is entered: fetched at this point, or still
    there from the last point that fetched it (the bias row is fetched once per contraction). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditionals, over the grid -/

/-- The first conditional (the accumulator is zeroed): taken when the contraction coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional (the output block is written): taken when the contraction coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are left untouched -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the first step of a contraction the output window is untouched, and not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At the middle steps likewise. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last step the body stores into it. -/
theorem liveAt1_3_C : ∀ t : Fin cfg1.N, ¬cond1_0 (grid1.coords t) → cond1_1 (grid1.coords t) → cfg1.idle 3 (grid1.coords t) = false := by decide +kernel

/-! ## The staging buffers and the accumulator -/

/-- One staging buffer of the output window, through which its contents are stated. -/
abbrev VO1_3 : View sig .tc .vmem S1024x1024 .f32 := (Memref.whole cc1_stg3_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole buffer of the call's own, kept from one grid point to the next. -/
abbrev scM1_0 : Memref sig .tc .vmem S1024x1024 .f32 := Memref.whole cc1_scratch0
abbrev VS1_0 : View sig .tc .vmem S1024x1024 .f32 := scM1_0.view

/-- Every other buffer of the core that is no staging buffer of this call, at some contents: the first call's
    staging buffers, which this call never opens. -/
abbrev others1 (c : Dev nD) : sProp 𝕄 :=
  Pipeline.scopedRestBut (Ix := Unit) (Name := ℕ) (U := UR sig nD τ) (Lvl := ℕ) (Val := Elt F) spec1 c [cc1_scratch0]

/-- What the call holds besides its windows, with the accumulator set apart. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [bigSepL_singleton, scM1_0, owns_whole]; try rfl

end Cert.KernelIdeal.Calls

end
-- ==== Proof.KI.Reg1RunA.lean ====
/-
  The matrix-product body run at the first step of a contraction (the accumulator is zeroed, then receives the first partial product): on whole staging buffers holding the point's blocks, the body runs to its
  end, hands every input back as it found it, and leaves in the accumulator exactly the stores it made,
  recorded as a list of rectangles with their values, the last store first.
-/
import proofs.«429469_j24721831756576_3_alg».proof.Proof.KI.Reg1Runs
set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Calls

end
-- ==== Proof.KI.Reg1RunB.lean ====
/-
  The matrix-product body run at a middle step of a contraction (the accumulator, holding what the step before left, receives one more partial product): on whole staging buffers holding the point's blocks, the body runs to its
  end, hands every input back as it found it, and leaves in the accumulator exactly the stores it made,
  recorded as a list of rectangles with their values, the last store first.
-/
import proofs.«429469_j24721831756576_3_alg».proof.Proof.KI.Reg1RunA
set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Calls

end
-- ==== Proof.KI.Reg1RunC.lean ====
/-
  The matrix-product body run at the last step of a contraction (the accumulator receives the last partial product; the output block is the accumulator plus the bias row): on whole staging buffers holding the point's blocks, the body runs to its
  end, hands every input back as it found it, and leaves in the accumulator and in the output block exactly the stores it made,
  recorded as a list of rectangles with their values, the last store first.
-/
import proofs.«429469_j24721831756576_3_alg».proof.Proof.KI.Reg1RunB
set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Calls

end
-- ==== Proof.KI.Reg1.lean ====
/-
  The matrix-product call, point by point. The grid runs the contraction axis innermost, four steps per output tile.
  The accumulator is carried from one grid point to the next: after a point it holds what that point's case of the
  body left in it, computed from the point's blocks and, past the first step of a contraction, from what the point
  before left. The output block is written at the last step of each contraction only, and is untouched (and not
  written back) at the others. Stated at an arbitrary content V of the buffers at the call's entry: the contents
  after each point, the invariant that carries the accumulator between points, and that the body at any grid point,
  entered with the invariant and the point's blocks, leaves exactly these contents.
-/
import proofs.«429469_j24721831756576_3_alg».proof.Proof.KI.Reg1RunC
set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case of the body leaves -/

/-! ### First step of a contraction -/
/-- The output block after the body in this case: its recorded stores read back (none: the block is untouched at these points and nothing reads this value). -/
def out1_A_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- The stores into the accumulator cover it. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- The accumulator after the body in this case: its recorded stores read back. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-! ### Middle steps -/
/-- The output block after the body in this case: its recorded stores read back (none: the block is untouched at these points and nothing reads this value). -/
def out1_B_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- The stores into the accumulator cover it. -/
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- The accumulator after the body in this case: its recorded stores read back. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-! ### Last step -/
/-- In this case the one store into the output block covers it. -/
theorem cover1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- The output block after the body in this case: its recorded stores read back. -/
def out1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- The stores into the accumulator cover it. -/
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- The accumulator after the body in this case: its recorded stores read back. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## The contents after each point -/

/-- After the body at position `n`: the output block and the accumulator, by the case the position is in (its
    remainder mod 4), over what the position before left in the accumulator. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point: the accumulator at anything. After position `n`: the accumulator at what that position
    left. Beside it, always, the other buffers this call never opens and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The call's data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body at a grid point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold the point's blocks; the position's remainder mod 4 says which case
    the body is in; the invariant hands over the accumulator at what the position before left (at anything at the very
    first point) and takes it back at this position's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 704 := lt_of_lt_of_eq t.isLt (show cfg1.N = 704 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B_0 c _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

/-- The body's obligation to the pipeline, at every point. -/
theorem body_obligation1 (c : Dev nD) : BodyObligation (dat1 (F := F) V c) (defs₀ (F := F)) Variants.none () Set.univ := fun t => by
  rw [bigSep_W1, bigSep_W1]
  exact sound_body1 V c t

/-- What the call is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the same back, the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 704 := N_1; omega)

end Cert.KernelIdeal.Calls

end
-- ==== Proof.KI.Run.lean ====
/-
  The whole program as one run. The buffers' contents at every boundary of @main are a fold from the launch memory:
  a stretch of host operations applies those operations; a kernel call leaves its arrays at what its write-backs
  produce and every other buffer as it was. Each call is entered from the contents the stretch before it left and
  is left at the contents the stretch after it starts from, so the nine segments chain, and the run ends with every
  buffer outside the kernels' own at the last boundary's contents.
-/
import proofs.«429469_j24721831756576_3_alg».proof.Proof.KI.Reg0
import proofs.«429469_j24721831756576_3_alg».proof.Proof.KI.Reg1
import proofs.«429469_j24721831756576_3_alg».proof.Proof.Gen.KernelIdeal.Regions
set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
/-- The same read at the TensorCore's references: what the first call is entered with. -/
abbrev E1 : (c : Dev nD) → (b : Ref sig .tc) → Buf (Elt F) ((c : Thread nD τ).loc b) := fun c b => W1 m ρ c b
/-- At call 0's exit: its arrays at what its write-backs leave, every other buffer as at its entry. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev X2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = E1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)
/-- What the second call is entered with. -/
abbrev E7 : (c : Dev nD) → (b : Ref sig .tc) → Buf (Elt F) ((c : Thread nD τ).loc b) := fun c b => W7 m ρ c b
/-- At call 1's exit: its arrays at what its write-backs leave, every other buffer as at its entry. -/
def W8 (c : Dev nD) : Valuation τ sig (Elt F) :=
  Pipeline.withArrays spec1 c (W7 m ρ c) fun w => (dat1 (E7 m ρ) c).arrAt w cfg1.N
theorem W8_arr (c : Dev nD) (w : Fin cfg1.W) :
    W8 m ρ c (Proc.devRef .tc (Pipeline.arrRef spec1 w)) = (dat1 (E7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev X8 : (c : Dev nD) → (b : Ref sig .tc) → Buf (Elt F) ((c : Thread nD τ).loc b) := fun c b => W8 m ρ c b
theorem hF1 (c : Dev nD) (w : Fin cfg1.W) : (dat1 (E7 m ρ) c).arrAt w cfg1.N = X8 m ρ c (Pipeline.arrRef spec1 w) :=
  (W8_arr m ρ c w).symm
theorem hrest1 (c : Dev nD) : ∀ b, b ∉ Finset.univ.image (Pipeline.arrRef spec1) → X8 m ρ c b = E7 m ρ c b :=
  fun b hb => W8_of_ne m ρ c b fun w e => hb (Finset.mem_image.mpr ⟨w, Finset.mem_univ _, e⟩)

abbrev W9 : Dev nD → Valuation τ sig (Elt F) := fun c => StableHlo.after hostOps2 (W8 m ρ c)

/-- A buffer that no host operation writes and that is no array of either call ends as launched. -/
theorem W9_of (c : Dev nD) (r : Ref sig .tc) (h0 : r ∉ hostOps0_W) (a0 : ∀ w, Pipeline.arrRef spec0 w ≠ r) (h1 : r ∉ hostOps1_W)
    (h11 : r ∉ hostOps1_1_W) (h12 : r ∉ hostOps1_2_W) (h13 : r ∉ hostOps1_3_W) (h14 : r ∉ hostOps1_4_W)
    (a1 : ∀ w, Pipeline.arrRef spec1 w ≠ r) (h2 : r ∉ hostOps2_W) :
    W9 m ρ c (Proc.devRef .tc r) = m ((c : Thread nD τ).loc r) :=
  (StableHlo.after_of_writes_sub hostOps2 _ hostOps2_writes h2).trans <|
  (W8_of_ne m ρ c r a1).trans <|
  (StableHlo.after_of_writes_sub hostOps1_4 _ hostOps1_4_writes h14).trans <|
  (StableHlo.after_of_writes_sub hostOps1_3 _ hostOps1_3_writes h13).trans <|
  (StableHlo.after_of_writes_sub hostOps1_2 _ hostOps1_2_writes h12).trans <|
  (StableHlo.after_of_writes_sub hostOps1_1 _ hostOps1_1_writes h11).trans <|
  (StableHlo.after_of_writes_sub hostOps1 _ hostOps1_writes h1).trans <|
  (W2_of_ne m ρ c r a0).trans <|
  (StableHlo.after_of_writes_sub hostOps0 _ hostOps0_writes h0).trans rfl

theorem W9_main_arg0 (c : Dev nD) : W9 m ρ c (Proc.devRef .tc main_arg0) = m ((c : Thread nD τ).loc main_arg0) :=
  W9_of m ρ c main_arg0 (by decide) (by decide) (by decide) (by decide) (by decide) (by decide) (by decide) (by decide) (by decide)
theorem W9_main_arg1 (c : Dev nD) : W9 m ρ c (Proc.devRef .tc main_arg1) = m ((c : Thread nD τ).loc main_arg1) :=
  W9_of m ρ c main_arg1 (by decide) (by decide) (by decide) (by decide) (by decide) (by decide) (by decide) (by decide) (by decide)
theorem W9_main_arg2 (c : Dev nD) : W9 m ρ c (Proc.devRef .tc main_arg2) = m ((c : Thread nD τ).loc main_arg2) :=
  W9_of m ρ c main_arg2 (by decide) (by decide) (by decide) (by decide) (by decide) (by decide) (by decide) (by decide) (by decide)
theorem W9_main_arg3 (c : Dev nD) : W9 m ρ c (Proc.devRef .tc main_arg3) = m ((c : Thread nD τ).loc main_arg3) :=
  W9_of m ρ c main_arg3 (by decide) (by decide) (by decide) (by decide) (by decide) (by decide) (by decide) (by decide) (by decide)
theorem W9_main_arg4 (c : Dev nD) : W9 m ρ c (Proc.devRef .tc main_arg4) = m ((c : Thread nD τ).loc main_arg4) :=
  W9_of m ρ c main_arg4 (by decide) (by decide) (by decide) (by decide) (by decide) (by decide) (by decide) (by decide) (by decide)

/-! ## The two calls' data together, and what rides beside the buffers -/

abbrev kadm : (p : Fin 2) → (pcfgs (F := F) p).Adm := fun p => (cfgs p).toPCfg_adm
def kpdats : (p : Fin 2) → (c : Dev nD) → Dat τ (Elt F) Unit ℕ (UR sig nD τ) ℕ (Pipeline.pin (pcfgs (F := F)) kadm p) c
  | ⟨0, _⟩ => fun c => dat0 (E1 m ρ) c
  | ⟨1, _⟩ => fun c => dat1 (E7 m ρ) c
abbrev k𝒱 : Variants := Variants.none
abbrev kL : GSem nD τ sig → Finset Unit := fun _ => ∅
abbrev klv : GSem nD τ sig → Unit → ℕ := fun _ _ => 0
/-- Beside the buffers: the generator register at some state, and nothing owed. -/
abbrev kR (c : Dev nD) : sProp 𝕄 := iprop((∃ r, prngReg c r) ∗ ∃ W, owes (c : Thread nD τ) (0 : CellTallies nD τ sig Unit) W)
abbrev khseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ k𝒱 kL klv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W kR

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last boundary without what is owed: every buffer outside the kernels' own at the last contents, and the
    generator register. -/
abbrev kTₙ (c : Dev nD) : sProp 𝕄 := iprop(StableHlo.held (c : Thread nD τ) (Pipeline.ucRefs τ sig) (W9 m ρ c) ∗ ∃ r, prngReg c r)

/-! ## The calls as segments -/

-- unification against the pinned configuration needs plain definitions unfolded inside a metavariable's type
set_option backward.isDefEq.respectTransparency.types false in
def kreg0 : Pipeline.RegionSeg (pcfgs (F := F)) kadm (kpdats m ρ) () defs₀ k𝒱 kL klv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ kL klv 0 fun _ _ => rfl
  pre c := iprop(StableHlo.held (c : Thread nD τ) (Pipeline.ucRefs τ sig) (W1 m ρ c) ∗ kR c)
  post c := iprop(StableHlo.held (c : Thread nD τ) (Pipeline.ucRefs τ sig) (W2 m ρ c) ∗ kR c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) kadm (kpdats m ρ) launch0.win launch0.arr_whole c
      ((kpdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (kpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) kadm (Ix := Unit) (Name := ℕ) (U := UR sig nD τ) (Lvl := ℕ)
      launch0.win launch0.arr_whole c (kpdats m ρ) ((kpdats m ρ 0 c).share_full fun _ => rfl)
      (E1 m ρ c) (X2 m ρ c) ((kpdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification against the pinned configuration needs plain definitions unfolded inside a metavariable's type
set_option backward.isDefEq.respectTransparency.types false in
def kreg1 : Pipeline.RegionSeg (pcfgs (F := F)) kadm (kpdats m ρ) () defs₀ k𝒱 kL klv 1 where
  win := launch1.win.to₀
  block_pos := launch1.block_pos
  stage_whole := launch1.stage_whole
  K := PEmpty
  osem k := k.elim
  ho := Pipeline.OwnSemFacts.none _
  hbody c := (body_obligation1 (E7 m ρ) c).loose
  hwaits := Pipeline.hwaits_of_owed_zero _ _ _ _ kL klv 1 fun _ _ => rfl
  pre c := iprop(StableHlo.held (c : Thread nD τ) (Pipeline.ucRefs τ sig) (W7 m ρ c) ∗ kR c)
  post c := iprop(StableHlo.held (c : Thread nD τ) (Pipeline.ucRefs τ sig) (W8 m ρ c) ∗ kR c)
  X c := iprop(∃ r, prngReg c r)
  Y c := iprop(∃ r, prngReg c r)
  Z c := Pipeline.unscopedRest (Ix := Unit) (Name := ℕ) (U := UR sig nD τ) (Lvl := ℕ) spec1 c (E7 m ρ c)
  hentry c := by
    rw [Pipeline.ownSems0_none]
    have hsplit := Pipeline.arrays_of_unscopedBufs (p := 1) (pcfgs (F := F)) kadm (kpdats m ρ) launch1.win launch1.arr_whole c
      ((kpdats m ρ 1 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (kpdats m ρ 1 c).Φ 0 := hin1 (E7 m ρ) c
    unfold Pipeline.ΦA at h
    iintro ⟨Hp, -, Hr⟩
    iapply h
    isplitl [Hr]; · iexact Hr
    iexact Hp
  hout c := by
    rw [Pipeline.ownSems0_none]
    have h : (kpdats m ρ 1 c).Φ (Fin.last _) ⊢ (Pipeline.ΦA spec1 c : sProp 𝕄) := hout1 (E7 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) kadm (Ix := Unit) (Name := ℕ) (U := UR sig nD τ) (Lvl := ℕ)
      launch1.win launch1.arr_whole c (kpdats m ρ) ((kpdats m ρ 1 c).share_full fun _ => rfl)
      (E7 m ρ c) (X8 m ρ c) ((kpdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its segments, and the run -/

abbrev ksegs : List (Pipeline.Seg (pcfgs (F := F)) kadm (kpdats m ρ) () defs₀ k𝒱 kL klv) :=
  [ .host (khseg hostOps0 hostOps0_sub hostOps0_fresh (W0 m ρ)),
    .region (kreg0 m ρ),
    .host (khseg hostOps1 hostOps1_sub hostOps1_fresh (W2 m ρ)),
    .host (khseg hostOps1_1 hostOps1_1_sub hostOps1_1_fresh (W3 m ρ)),
    .host (khseg hostOps1_2 hostOps1_2_sub hostOps1_2_fresh (W4 m ρ)),
    .host (khseg hostOps1_3 hostOps1_3_sub hostOps1_3_fresh (W5 m ρ)),
    .host (khseg hostOps1_4 hostOps1_4_sub hostOps1_4_fresh (W6 m ρ)),
    .region (kreg1 m ρ),
    .host (khseg hostOps2 hostOps2_sub hostOps2_fresh (W8 m ρ)) ]

theorem main_run (c : Dev nD) : main (F := F) c = Pipeline.Seg.run (ksegs m ρ) := (main_chain c).trans (by chain_rfl)

set_option backward.isDefEq.respectTransparency.types false in
/-- From any memory with zero counters every weakly fair execution of @main terminates, nothing faulting, and the final
    memory holds every buffer outside the kernels' own at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) kadm (kpdats m ρ) () cellOf_inj emb₁ defs₀ k𝒱 kL klv m ρ main (ksegs m ρ)
    (fun c Q => by rw [main_run m ρ c])
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ kR c)) (Tₙ := kTₙ m ρ)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (StableHlo.after hostOps2 (W8 m ρ c)) ∗ kR c)
          ⊢ iprop(kTₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach kL klv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The frame: the five argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c)⟩) (run_all m ρ)

end Cert.KernelIdeal.Calls

end
-- ==== Proof.KI.Glue.lean ====
/-
  The host operations around the two kernel calls of the idealized kernel program, each stretch read at an index:
  what every buffer a stretch writes holds, coordinate by coordinate, in terms of the buffers it read.
-/
import proofs.«429469_j24721831756576_3_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.Glue

open Cert.KernelIdeal Cert.KernelIdeal.Gen Idealize.ShloMosaic Idealize.ShloMosaic.ValueIdx

/-- A valuation of the device's buffers read at one TensorCore reference. -/
abbrev rd (W : Valuation τ sig (Elt Ideal)) (r : Ref sig .tc) : r.ty.Contents (Elt Ideal) := W (Proc.devRef .tc r)

/-- The activations [8, 2048, 4096] flattened to [16384, 4096] and converted to the 16-bit format: row r is the pair
    (r / 2048, r % 2048); the conversion is the identity on extended reals. -/
theorem g_v15 (W : Valuation τ sig (Elt Ideal)) (r : Fin 16384) (i : Fin 4096) :
    (rd (StableHlo.after (hostOps1_4 (F := Ideal)) W) main_v15 : S16384x4096.Idx → EReal) (ix2 r i)
      = (rd W main_arg0 : S8x2048x4096.Idx → EReal)
          (ix3 ⟨r.val / 2048, by omega⟩ ⟨r.val % 2048, Nat.mod_lt _ (by decide)⟩ i) := by
  have e : (StableHlo.after (hostOps1_4 (F := Ideal)) W (Proc.devRef .tc main_v15) : S16384x4096.Idx → EReal)
      = truncf (F := Ideal) .bf16 (shapeCast S16384x4096 (W (Proc.devRef .tc main_arg0) : S8x2048x4096.Idx → EReal)
          shapeCasts_S8x2048x4096_S16384x4096) bitsLt_bf16_f32 := by
    after_results; rfl
  refine (congrFun e (ix2 r i)).trans ?_
  refine (truncf_apply (ψ := .bf16) (φ := .f32) _ bitsLt_bf16_f32 (ix2 r i)).trans ?_
  exact shapeCast_apply _ shapeCasts_S8x2048x4096_S16384x4096 (ix2 r i)
    (ix3 ⟨r.val / 2048, by omega⟩ ⟨r.val % 2048, Nat.mod_lt _ (by decide)⟩ i) (by
      rw [Shape.rowMajor_val_three, Shape.rowMajor_val_two]
      show (r.val / 2048 * 2048 + r.val % 2048) * 4096 + i.val = r.val * 4096 + i.val
      omega)

/-- The padded bias vector [11264] viewed as the one-row matrix [1, 11264]. -/
theorem g_v16 (W : Valuation τ sig (Elt Ideal)) (n : Fin 11264) :
    (rd (StableHlo.after (hostOps1_4 (F := Ideal)) W) main_v16 : S1x11264.Idx → EReal) (ix2 ⟨0, Nat.one_pos⟩ n)
      = (rd W main_v13 : S11264.Idx → EReal) (ix1 n) := by
  have e : (StableHlo.after (hostOps1_4 (F := Ideal)) W (Proc.devRef .tc main_v16) : S1x11264.Idx → EReal)
      = shapeCast S1x11264 (W (Proc.devRef .tc main_v13) : S11264.Idx → EReal) shapeCasts_S11264_S1x11264 := by
    after_results; rfl
  refine (congrFun e (ix2 ⟨0, Nat.one_pos⟩ n)).trans ?_
  exact shapeCast_apply _ shapeCasts_S11264_S1x11264 (ix2 ⟨0, Nat.one_pos⟩ n) (ix1 n) (by
    rw [Shape.rowMajor_val_one, Shape.rowMajor_val_two]
    show n.val = 0 * 11264 + n.val
    omega)

/-- The second kernel call's result [16384, 11264] cut to its first 11008 columns and split into [8, 2048, 11008]:
    the entry (b, s, o) is row b·2048 + s, column o. -/
theorem g_v19 (W : Valuation τ sig (Elt Ideal)) (b : Fin 8) (s : Fin 2048) (o : Fin 11008) :
    (rd (StableHlo.after (hostOps2 (F := Ideal)) W) main_v19 : S8x2048x11008.Idx → EReal) (ix3 b s o)
      = (rd W main_v17 : S16384x11264.Idx → EReal)
          (ix2 ⟨b.val * 2048 + s.val, by omega⟩ ⟨o.val, by omega⟩) := by
  have e : (StableHlo.after (hostOps2 (F := Ideal)) W (Proc.devRef .tc main_v19) : S8x2048x11008.Idx → EReal)
      = shapeCast S8x2048x11008
          (extractStridedSlice S16384x11008 ![0, 0] (W (Proc.devRef .tc main_v17) : S16384x11264.Idx → EReal)
            slices_S16384x11264_S16384x11008_0_0) shapeCasts_S16384x11008_S8x2048x11008 := by
    after_results; rfl
  refine (congrFun e (ix3 b s o)).trans ?_
  refine (shapeCast_apply _ shapeCasts_S16384x11008_S8x2048x11008 (ix3 b s o)
    (ix2 (⟨b.val * 2048 + s.val, by omega⟩ : Fin 16384) o) (by
      rw [Shape.rowMajor_val_three, Shape.rowMajor_val_two]; rfl)).trans ?_
  exact extractStridedSlice_apply ![0, 0] _ slices_S16384x11264_S16384x11008_0_0
    (ix2 (⟨b.val * 2048 + s.val, by omega⟩ : Fin 16384) o)
    (ix2 (⟨b.val * 2048 + s.val, by omega⟩ : Fin 16384) (⟨o.val, by omega⟩ : Fin 11264)) (fun a => by
      match a with
      | ⟨0, _⟩ => show b.val * 2048 + s.val = 0 + (b.val * 2048 + s.val); omega
      | ⟨1, _⟩ => show o.val = 0 + o.val; omega)

/-- The packed weight words [22544384] viewed as the matrix [11008, 2048]: the entry (o, p) is word o·2048 + p. -/
theorem g_v0 (W : Valuation τ sig (Elt Ideal)) (o : Fin 11008) (p : Fin 2048) :
    (rd (StableHlo.after (hostOps0 (F := Ideal)) W) main_v0 : S11008x2048.Idx → BitVec 32) (ix2 o p)
      = (rd W main_arg1 : S22544384.Idx → BitVec 32) (ix1 ⟨o.val * 2048 + p.val, by omega⟩) := by
  have e : (StableHlo.after (hostOps0 (F := Ideal)) W (Proc.devRef .tc main_v0) : S11008x2048.Idx → BitVec 32)
      = shapeCast S11008x2048 (W (Proc.devRef .tc main_arg1) : S22544384.Idx → BitVec 32)
          shapeCasts_S22544384_S11008x2048 := by
    after_results; rfl
  refine (congrFun e (ix2 o p)).trans ?_
  exact shapeCast_apply _ shapeCasts_S22544384_S11008x2048 (ix2 o p)
    (ix1 (⟨o.val * 2048 + p.val, by omega⟩ : Fin 22544384)) (by
      rw [Shape.rowMajor_val_one, Shape.rowMajor_val_two]; rfl)

/-- The per-group scales [5636096] viewed as [11008, 512], each repeated over its group of four columns, viewed as
    [11008, 2048]: the entry (o, p) is the scale of group p / 4 of row o. -/
theorem g_v4 (W : Valuation τ sig (Elt Ideal)) (o : Fin 11008) (p : Fin 2048) :
    (rd (StableHlo.after (hostOps0 (F := Ideal)) W) main_v4 : S11008x2048.Idx → EReal) (ix2 o p)
      = (rd W main_arg2 : S5636096.Idx → EReal) (ix1 ⟨o.val * 512 + p.val / 4, by omega⟩) := by
  have e : (StableHlo.after (hostOps0 (F := Ideal)) W (Proc.devRef .tc main_v4) : S11008x2048.Idx → EReal)
      = shapeCast S11008x2048
          (broadcastInDim S11008x512x4 ![0, 1] bcast_S11008x512_S11008x512x4_0_1
            (shapeCast S11008x512 (W (Proc.devRef .tc main_arg2) : S5636096.Idx → EReal) shapeCasts_S5636096_S11008x512))
          shapeCasts_S11008x512x4_S11008x2048 := by
    after_results; rfl
  refine (congrFun e (ix2 o p)).trans ?_
  refine (shapeCast_apply _ shapeCasts_S11008x512x4_S11008x2048 (ix2 o p)
    (ix3 o (⟨p.val / 4, by omega⟩ : Fin 512) (⟨p.val % 4, Nat.mod_lt _ (by decide)⟩ : Fin 4)) (by
      rw [Shape.rowMajor_val_three, Shape.rowMajor_val_two]
      show (o.val * 512 + p.val / 4) * 4 + p.val % 4 = o.val * 2048 + p.val
      omega)).trans ?_
  refine (broadcastInDim_apply ![0, 1] bcast_S11008x512_S11008x512x4_0_1 _
    (ix3 o (⟨p.val / 4, by omega⟩ : Fin 512) (⟨p.val % 4, Nat.mod_lt _ (by decide)⟩ : Fin 4))
    (ix2 o (⟨p.val / 4, by omega⟩ : Fin 512)) (fun a => by
      match a with
      | ⟨0, _⟩ => show o.val = if (11008 : Nat) = 1 then 0 else o.val; exact (if_neg (by decide)).symm
      | ⟨1, _⟩ => show p.val / 4 = if (512 : Nat) = 1 then 0 else p.val / 4; exact (if_neg (by decide)).symm)).trans ?_
  exact shapeCast_apply _ shapeCasts_S5636096_S11008x512 (ix2 o (⟨p.val / 4, by omega⟩ : Fin 512))
    (ix1 (⟨o.val * 512 + p.val / 4, by omega⟩ : Fin 5636096)) (by
      rw [Shape.rowMajor_val_one, Shape.rowMajor_val_two]; rfl)

/-- The per-group offsets [5636096], laid out as the scales are: the entry (o, p) is the offset of group p / 4 of row o. -/
theorem g_v6 (W : Valuation τ sig (Elt Ideal)) (o : Fin 11008) (p : Fin 2048) :
    (rd (StableHlo.after (hostOps0 (F := Ideal)) W) main_v6 : S11008x2048.Idx → EReal) (ix2 o p)
      = (rd W main_arg3 : S5636096.Idx → EReal) (ix1 ⟨o.val * 512 + p.val / 4, by omega⟩) := by
  have e : (StableHlo.after (hostOps0 (F := Ideal)) W (Proc.devRef .tc main_v6) : S11008x2048.Idx → EReal)
      = shapeCast S11008x2048
          (broadcastInDim S11008x512x4 ![0, 1] bcast_S11008x512_S11008x512x4_0_1
            (shapeCast S11008x512 (W (Proc.devRef .tc main_arg3) : S5636096.Idx → EReal) shapeCasts_S5636096_S11008x512))
          shapeCasts_S11008x512x4_S11008x2048 := by
    after_results; rfl
  refine (congrFun e (ix2 o p)).trans ?_
  refine (shapeCast_apply _ shapeCasts_S11008x512x4_S11008x2048 (ix2 o p)
    (ix3 o (⟨p.val / 4, by omega⟩ : Fin 512) (⟨p.val % 4, Nat.mod_lt _ (by decide)⟩ : Fin 4)) (by
      rw [Shape.rowMajor_val_three, Shape.rowMajor_val_two]
      show (o.val * 512 + p.val / 4) * 4 + p.val % 4 = o.val * 2048 + p.val
      omega)).trans ?_
  refine (broadcastInDim_apply ![0, 1] bcast_S11008x512_S11008x512x4_0_1 _
    (ix3 o (⟨p.val / 4, by omega⟩ : Fin 512) (⟨p.val % 4, Nat.mod_lt _ (by decide)⟩ : Fin 4))
    (ix2 o (⟨p.val / 4, by omega⟩ : Fin 512)) (fun a => by
      match a with
      | ⟨0, _⟩ => show o.val = if (11008 : Nat) = 1 then 0 else o.val; exact (if_neg (by decide)).symm
      | ⟨1, _⟩ => show p.val / 4 = if (512 : Nat) = 1 then 0 else p.val / 4; exact (if_neg (by decide)).symm)).trans ?_
  exact shapeCast_apply _ shapeCasts_S5636096_S11008x512 (ix2 o (⟨p.val / 4, by omega⟩ : Fin 512))
    (ix1 (⟨o.val * 512 + p.val / 4, by omega⟩ : Fin 5636096)) (by
      rw [Shape.rowMajor_val_one, Shape.rowMajor_val_two]; rfl)

/-- The bias vector [11008] extended by 256 entries of the converted integer zero: below 11008 the bias, zero above. -/
theorem g_v13 (W : Valuation τ sig (Elt Ideal)) (n : Fin 11264) :
    (rd (StableHlo.after (hostOps1_3 (F := Ideal)) (StableHlo.after (hostOps1_2 (F := Ideal)) W)) main_v13
        : S11264.Idx → EReal) (ix1 n)
      = (if h : n.val < 11008 then (rd W main_arg4 : S11008.Idx → EReal) (ix1 ⟨n.val, h⟩) else 0 : EReal) := by
  have e : (StableHlo.after (hostOps1_3 (F := Ideal)) (StableHlo.after (hostOps1_2 (F := Ideal)) W)
        (Proc.devRef .tc main_v13) : S11264.Idx → EReal)
      = pad S11264 ![0] ![256] ![0] (W (Proc.devRef .tc main_arg4) : S11008.Idx → EReal)
          (sitofp (F := Ideal) .f32 (constantI S_ 32 0#32)) pads_S11008_S11264_02560 h_S_ := by
    after_results; rfl
  refine (congrFun e (ix1 n)).trans ?_
  by_cases h : n.val < 11008
  · rw [dif_pos h]
    exact pad_apply_of_inside ![0] ![256] ![0] _ _ pads_S11008_S11264_02560 h_S_ (ix1 n)
      (ix1 (⟨n.val, h⟩ : Fin 11008)) (fun a => by
        match a with
        | ⟨0, _⟩ => show n.val = 0 + n.val * (0 + 1); omega)
  · rw [dif_neg h]
    refine (pad_apply_of_not_inside ![0] ![256] ![0] _ _ pads_S11008_S11264_02560 h_S_ (ix1 n)
      (⟨0, Nat.one_pos⟩ : Fin S11008.rank) ?_).trans ?_
    · show ¬((0 : Nat) ≤ n.val ∧ (n.val - 0) % (0 + 1) = 0 ∧ (n.val - 0) / (0 + 1) < 11008)
      intro hh
      have h3 : (n.val - 0) / (0 + 1) < 11008 := hh.2.2
      rw [Nat.sub_zero, Nat.zero_add, Nat.div_one] at h3
      exact h h3
    · show (Scalar.sitofp .f32 0#32 : Ideal .f32) = 0
      exact sitofp_zero

/-- The two halves [11008, 2048] of the unpacked weights interleaved along the columns into [11008, 4096] — column i
    is column i / 2 of the first half when i is even and of the second when i is odd — and extended by 256 rows of
    the converted integer zero. -/
theorem g_v12 (W : Valuation τ sig (Elt Ideal)) (n : Fin 11264) (i : Fin 4096) :
    (rd (StableHlo.after (hostOps1_1 (F := Ideal)) (StableHlo.after (hostOps1 (F := Ideal)) W)) main_v12
        : S11264x4096.Idx → EReal) (ix2 n i)
      = (if h : n.val < 11008 then
          (if i.val % 2 = 0 then (rd W main_v7_0 : S11008x2048.Idx → EReal) (ix2 ⟨n.val, h⟩ ⟨i.val / 2, by omega⟩)
           else (rd W main_v7_1 : S11008x2048.Idx → EReal) (ix2 ⟨n.val, h⟩ ⟨i.val / 2, by omega⟩))
        else 0 : EReal) := by
  have e : (StableHlo.after (hostOps1_1 (F := Ideal)) (StableHlo.after (hostOps1 (F := Ideal)) W)
        (Proc.devRef .tc main_v12) : S11264x4096.Idx → EReal)
      = pad S11264x4096 ![0, 0] ![256, 0] ![0, 0]
          (shapeCast S11008x4096
            (concatenate S11008x2048x2 2
              [⟨S11008x2048x1, broadcastInDim S11008x2048x1 ![0, 1] bcast_S11008x2048_S11008x2048x1_0_1
                  (W (Proc.devRef .tc main_v7_0) : S11008x2048.Idx → EReal)⟩,
               ⟨S11008x2048x1, broadcastInDim S11008x2048x1 ![0, 1] bcast_S11008x2048_S11008x2048x1_0_1
                  (W (Proc.devRef .tc main_v7_1) : S11008x2048.Idx → EReal)⟩]
              concatenates_S11008x2048x1_S11008x2048x1_S11008x2048x2_d2)
            shapeCasts_S11008x2048x2_S11008x4096)
          (sitofp (F := Ideal) .bf16 (constantI S_ 32 0#32)) pads_S11008x4096_S11264x4096_02560_000 h_S_ := by
    after_results; rfl
  refine (congrFun e (ix2 n i)).trans ?_
  by_cases h : n.val < 11008
  · rw [dif_pos h]
    refine (pad_apply_of_inside ![0, 0] ![256, 0] ![0, 0] _ _ pads_S11008x4096_S11264x4096_02560_000 h_S_ (ix2 n i)
      (ix2 (⟨n.val, h⟩ : Fin 11008) i) (fun a => by
        match a with
        | ⟨0, _⟩ => show n.val = 0 + n.val * (0 + 1); omega
        | ⟨1, _⟩ => show i.val = 0 + i.val * (0 + 1); omega)).trans ?_
    refine (shapeCast_apply _ shapeCasts_S11008x2048x2_S11008x4096 (ix2 (⟨n.val, h⟩ : Fin 11008) i)
      (ix3 (⟨n.val, h⟩ : Fin 11008) (⟨i.val / 2, by omega⟩ : Fin 2048) (⟨i.val % 2, Nat.mod_lt _ (by decide)⟩ : Fin 2)) (by
        rw [Shape.rowMajor_val_three, Shape.rowMajor_val_two]
        show (n.val * 2048 + i.val / 2) * 2 + i.val % 2 = n.val * 4096 + i.val
        omega)).trans ?_
    by_cases hp : i.val % 2 = 0
    · rw [if_pos hp]
      refine (concatenate_pair_apply_left _ _ _ concatenates_S11008x2048x1_S11008x2048x1_S11008x2048x2_d2
        (ix3 (⟨n.val, h⟩ : Fin 11008) (⟨i.val / 2, by omega⟩ : Fin 2048) (⟨i.val % 2, Nat.mod_lt _ (by decide)⟩ : Fin 2))
        rfl (ix3 (⟨n.val, h⟩ : Fin 11008) (⟨i.val / 2, by omega⟩ : Fin 2048) (⟨0, Nat.one_pos⟩ : Fin 1)) (fun b => by
          match b with
          | ⟨0, _⟩ => rfl
          | ⟨1, _⟩ => rfl
          | ⟨2, _⟩ => show (0 : Nat) = i.val % 2; omega)).trans ?_
      exact broadcastInDim_apply ![0, 1] bcast_S11008x2048_S11008x2048x1_0_1 _
        (ix3 (⟨n.val, h⟩ : Fin 11008) (⟨i.val / 2, by omega⟩ : Fin 2048) (⟨0, Nat.one_pos⟩ : Fin 1))
        (ix2 (⟨n.val, h⟩ : Fin 11008) (⟨i.val / 2, by omega⟩ : Fin 2048)) (fun a => by
          match a with
          | ⟨0, _⟩ => show n.val = if (11008 : Nat) = 1 then 0 else n.val; exact (if_neg (by decide)).symm
          | ⟨1, _⟩ => show i.val / 2 = if (2048 : Nat) = 1 then 0 else i.val / 2; exact (if_neg (by decide)).symm)
    · rw [if_neg hp]
      refine (concatenate_pair_apply_right _ _ _ concatenates_S11008x2048x1_S11008x2048x1_S11008x2048x2_d2
        (ix3 (⟨n.val, h⟩ : Fin 11008) (⟨i.val / 2, by omega⟩ : Fin 2048) (⟨i.val % 2, Nat.mod_lt _ (by decide)⟩ : Fin 2))
        rfl rfl (ix3 (⟨n.val, h⟩ : Fin 11008) (⟨i.val / 2, by omega⟩ : Fin 2048) (⟨0, Nat.one_pos⟩ : Fin 1)) (fun b => by
          match b with
          | ⟨0, _⟩ => exact fun _ => rfl
          | ⟨1, _⟩ => exact fun _ => rfl
          | ⟨2, _⟩ => exact fun hne => absurd (Fin.ext rfl) hne) (by
          show 0 + 1 = i.val % 2; omega)).trans ?_
      exact broadcastInDim_apply ![0, 1] bcast_S11008x2048_S11008x2048x1_0_1 _
        (ix3 (⟨n.val, h⟩ : Fin 11008) (⟨i.val / 2, by omega⟩ : Fin 2048) (⟨0, Nat.one_pos⟩ : Fin 1))
        (ix2 (⟨n.val, h⟩ : Fin 11008) (⟨i.val / 2, by omega⟩ : Fin 2048)) (fun a => by
          match a with
          | ⟨0, _⟩ => show n.val = if (11008 : Nat) = 1 then 0 else n.val; exact (if_neg (by decide)).symm
          | ⟨1, _⟩ => show i.val / 2 = if (2048 : Nat) = 1 then 0 else i.val / 2; exact (if_neg (by decide)).symm)
  · rw [dif_neg h]
    refine (pad_apply_of_not_inside ![0, 0] ![256, 0] ![0, 0] _ _ pads_S11008x4096_S11264x4096_02560_000 h_S_ (ix2 n i)
      (⟨0, Nat.succ_pos 1⟩ : Fin S11008x4096.rank) ?_).trans ?_
    · show ¬((0 : Nat) ≤ n.val ∧ (n.val - 0) % (0 + 1) = 0 ∧ (n.val - 0) / (0 + 1) < 11008)
      intro hh
      have h3 : (n.val - 0) / (0 + 1) < 11008 := hh.2.2
      rw [Nat.sub_zero, Nat.zero_add, Nat.div_one] at h3
      exact h h3
    · show (Scalar.sitofp .bf16 0#32 : Ideal .bf16) = 0
      exact sitofp_zero

end Cert.KernelIdeal.Glue

end
-- ==== Proof.Spec.lean ====
/-
  What both programs compute, as one function of the five argument arrays at the ideal values.

  A packed word carries two 4-bit fields in its low byte: the low field belongs to an even input column, the high
  field to the odd column after it. The weight at output row o and input column i is the field of word
  o·2048 + i/2 chosen by the parity of i, read as an integer, times the scale of the group of eight columns
  containing i, plus that group's offset (group o·512 + i/8). The result at (b, s, o) is the sum over the 4096 input
  columns i of x[b, s, i] times that weight, plus the bias at o.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![8, 2048, 4096]⟩
abbrev SPk : Shape := ⟨1, ![22544384]⟩
abbrev SGr : Shape := ⟨1, ![5636096]⟩
abbrev SBi : Shape := ⟨1, ![11008]⟩
abbrev SY : Shape := ⟨3, ![8, 2048, 11008]⟩

/-- The low (`hi = false`) or the high (`hi = true`) 4-bit field of a word's low byte. -/
def nibble (w : BitVec 32) (hi : Bool) : BitVec 32 :=
  if hi then (w.sshiftRight' 4#32) &&& 15#32 else w &&& 15#32

theorem pk_lt (o : Fin 11008) (i : Fin 4096) : o.val * 2048 + i.val / 2 < 22544384 := by
  have := o.isLt; have := i.isLt; omega

theorem gr_lt (o : Fin 11008) (i : Fin 4096) : o.val * 512 + i.val / 8 < 5636096 := by
  have := o.isLt; have := i.isLt; omega

/-- The dequantized weight at output row `o`, input column `i`. -/
def weight (pk : (⟨SPk, .i32⟩ : BufTy).Contents (Elt Ideal)) (sc off : (⟨SGr, .f32⟩ : BufTy).Contents (Elt Ideal))
    (o : Fin 11008) (i : Fin 4096) : EReal :=
  (((nibble (pk (ix1 ⟨o.val * 2048 + i.val / 2, pk_lt o i⟩)) (i.val % 2 == 1)).toInt : ℝ) : EReal)
      * sc (ix1 ⟨o.val * 512 + i.val / 8, gr_lt o i⟩)
    + off (ix1 ⟨o.val * 512 + i.val / 8, gr_lt o i⟩)

/-- The result at batch `b`, row `s`, output column `o`. -/
def resultAt (x : (⟨SX, .f32⟩ : BufTy).Contents (Elt Ideal)) (pk : (⟨SPk, .i32⟩ : BufTy).Contents (Elt Ideal))
    (sc off : (⟨SGr, .f32⟩ : BufTy).Contents (Elt Ideal)) (bi : (⟨SBi, .f32⟩ : BufTy).Contents (Elt Ideal))
    (b : Fin 8) (s : Fin 2048) (o : Fin 11008) : EReal :=
  (∑ i : Fin 4096, x (ix3 b s i) * weight pk sc off o i) + bi (ix1 o)

/-- The whole result array. -/
def result (x : (⟨SX, .f32⟩ : BufTy).Contents (Elt Ideal)) (pk : (⟨SPk, .i32⟩ : BufTy).Contents (Elt Ideal))
    (sc off : (⟨SGr, .f32⟩ : BufTy).Contents (Elt Ideal)) (bi : (⟨SBi, .f32⟩ : BufTy).Contents (Elt Ideal)) :
    (⟨SY, .f32⟩ : BufTy).Contents (Elt Ideal) :=
  fun j => resultAt x pk sc off bi (j 0) (j 1) (j 2)

theorem result_apply (x : (⟨SX, .f32⟩ : BufTy).Contents (Elt Ideal)) (pk : (⟨SPk, .i32⟩ : BufTy).Contents (Elt Ideal))
    (sc off : (⟨SGr, .f32⟩ : BufTy).Contents (Elt Ideal)) (bi : (⟨SBi, .f32⟩ : BufTy).Contents (Elt Ideal))
    (b : Fin 8) (s : Fin 2048) (o : Fin 11008) :
    result x pk sc off bi (ix3 b s o) = resultAt x pk sc off bi b s o := rfl

end Cert.Spec

end
-- ==== Proof.KI.Val0.lean ====
/-
  What the first call — the dequantization — leaves in its two output arrays. At every grid point the body stores,
  over the whole 128 by 2048 block, the low (resp. high) 4-bit field of each packed word, read as an integer, times
  the scale at the same place plus the offset at the same place. The five windows move together (point t is the band
  of rows 128·t … 128·t + 127, all 2048 columns), the 86 bands tile the 11008 rows, and every point writes its two
  output blocks back; so each output array ends as that one function of the three input arrays, index by index.
-/
import proofs.«429469_j24721831756576_3_alg».proof.Proof.KI.Reg0
import proofs.«429469_j24721831756576_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Calls

open Cert.KernelIdeal Cert.KernelIdeal.Gen Idealize.ShloMosaic Idealize.ShloMosaic.ValueIdx Idealize.ShloMosaic.TcCoe

/-! ## The body's two payloads at an index -/

/-- The low-field payload: the word's low field as an integer, times the scale, plus the offset. -/
theorem pay4_apply (v0 : Vec Ideal S128x2048 .i32) (v10 v12 : Vec Ideal S128x2048 .f32) (j : S128x2048.Idx) :
    k0_pay4 (F := Ideal) v0 v10 v12 j
      = (((Cert.Spec.nibble (v0 j) false).toInt : ℝ) : EReal) * v10 j + v12 j := by
  unfold k0_pay4 k0_pay1 k0_pay2 k0_pay3
  simp only [shapeCast_self]
  rfl

/-- The high-field payload: the word shifted right by four places (arithmetically), its low field as an integer,
    times the scale, plus the offset. -/
theorem pay5_apply (v0 : Vec Ideal S128x2048 .i32) (v10 v12 : Vec Ideal S128x2048 .f32) (j : S128x2048.Idx) :
    k0_pay5 (F := Ideal) v0 v10 v12 j
      = (((Cert.Spec.nibble (v0 j) true).toInt : ℝ) : EReal) * v10 j + v12 j := by
  unfold k0_pay5 k0_pay1 k0_pay2 k0_pay3
  simp only [shapeCast_self]
  have hs : IntOp.shrsi .vector (v0 j) 4#32 = (v0 j).sshiftRight' 4#32 := if_pos (by decide)
  show (((IntOp.andi (IntOp.shrsi .vector (v0 j) 4#32) 15#32).toInt : ℝ) : EReal) * v10 j + v12 j = _
  rw [hs]
  rfl

/-! ## The two output arrays as one function of the three input arrays -/

/-- The dequantized field at an index: the low (`hi = false`) or high (`hi = true`) field of the packed word there,
    as an integer, times the scale there, plus the offset there. -/
def deq0 (hi : Bool) (W : S11008x2048.Idx → BitVec 32) (Sc Of : S11008x2048.Idx → EReal) : S11008x2048.Idx → EReal :=
  fun i => (((Cert.Spec.nibble (W i) hi).toInt : ℝ) : EReal) * Sc i + Of i

theorem zero_offsets : (![0, 0] : Fin 2 → Nat) = fun _ => 0 := funext fun a => by fin_cases a <;> rfl

/-- The five index maps, decided over the 86 points: point `t` is block row `t`, block column 0, for every window. -/
theorem index_facts0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-! ## The low-field array -/

/-- What point `t` writes back into the low-field array is block `t` of the low-field function of the arrays. -/
theorem flushed0_3_eq (c : Dev nD) (t : Fin cfg0.N) :
    (dat0 (F := Ideal) V c).flushed 3 t
      = ((cfg0.win 3).blk t).view.read (Elt Ideal)
          (deq0 false (V c main_v0 : S11008x2048.Idx → BitVec 32) (V c main_v4 : S11008x2048.Idx → EReal) (V c main_v6 : S11008x2048.Idx → EReal)) := by
  show (cfg0.win 3).cut (grid0.coords t) ((dat0 (F := Ideal) V c).after 3 t) = _
  rw [after0_3]
  unfold out0_3
  rw [View.canon_unit_zero zero_offsets]
  simp only [View.ld_unit_zero (S := S128x2048) zero_offsets]
  obtain ⟨e00, e01, e10, e11, e20, e21, e30, e31, e40, e41⟩ := index_facts0 t
  funext j
  refine (pay4_apply _ _ _ j).trans ?_
  have hj0 : (j 0).val < 128 := (j 0).isLt
  have hj1 : (j 1).val < 2048 := (j 1).isLt
  have h0 : ((cfg0.win 0).blk t).view.emb j = ((cfg0.win 3).blk t).view.emb j := by
    funext a; apply Fin.ext
    match a with
    | ⟨0, _⟩ => show win0_0.index t (0 : Fin 2) * 128 + 1 * (j 0).val = win0_3.index t (0 : Fin 2) * 128 + 1 * (j 0).val; omega
    | ⟨1, _⟩ => show win0_0.index t (1 : Fin 2) * 2048 + 1 * (j 1).val = win0_3.index t (1 : Fin 2) * 2048 + 1 * (j 1).val; omega
  have h1 : ((cfg0.win 1).blk t).view.emb j = ((cfg0.win 3).blk t).view.emb j := by
    funext a; apply Fin.ext
    match a with
    | ⟨0, _⟩ => show win0_1.index t (0 : Fin 2) * 128 + 1 * (j 0).val = win0_3.index t (0 : Fin 2) * 128 + 1 * (j 0).val; omega
    | ⟨1, _⟩ => show win0_1.index t (1 : Fin 2) * 2048 + 1 * (j 1).val = win0_3.index t (1 : Fin 2) * 2048 + 1 * (j 1).val; omega
  have h2 : ((cfg0.win 2).blk t).view.emb j = ((cfg0.win 3).blk t).view.emb j := by
    funext a; apply Fin.ext
    match a with
    | ⟨0, _⟩ => show win0_2.index t (0 : Fin 2) * 128 + 1 * (j 0).val = win0_3.index t (0 : Fin 2) * 128 + 1 * (j 0).val; omega
    | ⟨1, _⟩ => show win0_2.index t (1 : Fin 2) * 2048 + 1 * (j 1).val = win0_3.index t (1 : Fin 2) * 2048 + 1 * (j 1).val; omega
  show (((Cert.Spec.nibble ((V c main_v0 : S11008x2048.Idx → BitVec 32) (((cfg0.win 0).blk t).view.emb j)) false).toInt : ℝ) : EReal)
        * (V c main_v4 : S11008x2048.Idx → EReal) (((cfg0.win 1).blk t).view.emb j)
      + (V c main_v6 : S11008x2048.Idx → EReal) (((cfg0.win 2).blk t).view.emb j)
    = deq0 false (V c main_v0 : S11008x2048.Idx → BitVec 32) (V c main_v4 : S11008x2048.Idx → EReal) (V c main_v6 : S11008x2048.Idx → EReal) (((cfg0.win 3).blk t).view.emb j)
  rw [h0, h1, h2]
  rfl

/-- An index of the array lies in point `t`'s block iff each coordinate lies in the block's range on its axis. -/
theorem mem_blk0_3 (t : Fin cfg0.N) (i : S11008x2048.Idx) :
    i ∈ ((cfg0.win 3).blk t).view.set
      ↔ ∀ a : Fin 2, win0_3.index t a * S128x2048.size a ≤ (i a).val
          ∧ (i a).val < win0_3.index t a * S128x2048.size a + S128x2048.size a := by
  show i ∈ ((View.whole main_v7_0).slice (win0_3.rect t)).set ↔ _
  rw [View.set_slice_whole, Rect.mem_set_unit]
  exact Iff.rfl

/-- Row `r` of the array lies in the band of point `r / 128`, and every point writes its block back. -/
theorem cover0_3 (i : S11008x2048.Idx) :
    ∃ t : Fin cfg0.N, (cfg0.win 3).flush t = true ∧ i ∈ ((cfg0.win 3).blk t).view.set := by
  have hi0 : (i 0).val < 11008 := (i 0).isLt
  have hi1 : (i 1).val < 2048 := (i 1).isLt
  have hN : cfg0.N = 86 := rfl
  obtain ⟨t, ht⟩ : ∃ t : Fin cfg0.N, t.val = (i 0).val / 128 := ⟨⟨(i 0).val / 128, by rw [hN]; omega⟩, rfl⟩
  obtain ⟨e00, e01, e10, e11, e20, e21, e30, e31, e40, e41⟩ := index_facts0 t
  refine ⟨t, flush0_3 t, ?_⟩
  rw [mem_blk0_3]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 2048 ≤ (i 1).val ∧ (i 1).val < win0_3.index t (1 : Fin 2) * 2048 + 2048; omega

/-- The low-field array after the call: at row `o`, column `p`, the low field of the packed word there as an
    integer, times the scale there, plus the offset there. -/
theorem arr0_3 (c : Dev nD) (o : Fin 11008) (p : Fin 2048) :
    ((dat0 (F := Ideal) V c).arrAt 3 cfg0.N : S11008x2048.Idx → EReal) (ix2 o p)
      = (((Cert.Spec.nibble ((V c main_v0 : S11008x2048.Idx → BitVec 32) (ix2 o p)) false).toInt : ℝ) : EReal)
          * (V c main_v4 : S11008x2048.Idx → EReal) (ix2 o p)
        + (V c main_v6 : S11008x2048.Idx → EReal) (ix2 o p) :=
  congrFun ((dat0 (F := Ideal) V c).arrAt_eq_of_cover 3
    (deq0 false (V c main_v0 : S11008x2048.Idx → BitVec 32) (V c main_v4 : S11008x2048.Idx → EReal) (V c main_v6 : S11008x2048.Idx → EReal))
    (fun t _ => flushed0_3_eq V c t) cover0_3) (ix2 o p)

/-! ## The high-field array -/

/-- What point `t` writes back into the high-field array is block `t` of the high-field function of the arrays. -/
theorem flushed0_4_eq (c : Dev nD) (t : Fin cfg0.N) :
    (dat0 (F := Ideal) V c).flushed 4 t
      = ((cfg0.win 4).blk t).view.read (Elt Ideal)
          (deq0 true (V c main_v0 : S11008x2048.Idx → BitVec 32) (V c main_v4 : S11008x2048.Idx → EReal) (V c main_v6 : S11008x2048.Idx → EReal)) := by
  show (cfg0.win 4).cut (grid0.coords t) ((dat0 (F := Ideal) V c).after 4 t) = _
  rw [after0_4]
  unfold out0_4
  rw [View.canon_unit_zero zero_offsets]
  simp only [View.ld_unit_zero (S := S128x2048) zero_offsets]
  obtain ⟨e00, e01, e10, e11, e20, e21, e30, e31, e40, e41⟩ := index_facts0 t
  funext j
  refine (pay5_apply _ _ _ j).trans ?_
  have hj0 : (j 0).val < 128 := (j 0).isLt
  have hj1 : (j 1).val < 2048 := (j 1).isLt
  have h0 : ((cfg0.win 0).blk t).view.emb j = ((cfg0.win 4).blk t).view.emb j := by
    funext a; apply Fin.ext
    match a with
    | ⟨0, _⟩ => show win0_0.index t (0 : Fin 2) * 128 + 1 * (j 0).val = win0_4.index t (0 : Fin 2) * 128 + 1 * (j 0).val; omega
    | ⟨1, _⟩ => show win0_0.index t (1 : Fin 2) * 2048 + 1 * (j 1).val = win0_4.index t (1 : Fin 2) * 2048 + 1 * (j 1).val; omega
  have h1 : ((cfg0.win 1).blk t).view.emb j = ((cfg0.win 4).blk t).view.emb j := by
    funext a; apply Fin.ext
    match a with
    | ⟨0, _⟩ => show win0_1.index t (0 : Fin 2) * 128 + 1 * (j 0).val = win0_4.index t (0 : Fin 2) * 128 + 1 * (j 0).val; omega
    | ⟨1, _⟩ => show win0_1.index t (1 : Fin 2) * 2048 + 1 * (j 1).val = win0_4.index t (1 : Fin 2) * 2048 + 1 * (j 1).val; omega
  have h2 : ((cfg0.win 2).blk t).view.emb j = ((cfg0.win 4).blk t).view.emb j := by
    funext a; apply Fin.ext
    match a with
    | ⟨0, _⟩ => show win0_2.index t (0 : Fin 2) * 128 + 1 * (j 0).val = win0_4.index t (0 : Fin 2) * 128 + 1 * (j 0).val; omega
    | ⟨1, _⟩ => show win0_2.index t (1 : Fin 2) * 2048 + 1 * (j 1).val = win0_4.index t (1 : Fin 2) * 2048 + 1 * (j 1).val; omega
  show (((Cert.Spec.nibble ((V c main_v0 : S11008x2048.Idx → BitVec 32) (((cfg0.win 0).blk t).view.emb j)) true).toInt : ℝ) : EReal)
        * (V c main_v4 : S11008x2048.Idx → EReal) (((cfg0.win 1).blk t).view.emb j)
      + (V c main_v6 : S11008x2048.Idx → EReal) (((cfg0.win 2).blk t).view.emb j)
    = deq0 true (V c main_v0 : S11008x2048.Idx → BitVec 32) (V c main_v4 : S11008x2048.Idx → EReal) (V c main_v6 : S11008x2048.Idx → EReal) (((cfg0.win 4).blk t).view.emb j)
  rw [h0, h1, h2]
  rfl

/-- An index of the array lies in point `t`'s block iff each coordinate lies in the block's range on its axis. -/
theorem mem_blk0_4 (t : Fin cfg0.N) (i : S11008x2048.Idx) :
    i ∈ ((cfg0.win 4).blk t).view.set
      ↔ ∀ a : Fin 2, win0_4.index t a * S128x2048.size a ≤ (i a).val
          ∧ (i a).val < win0_4.index t a * S128x2048.size a + S128x2048.size a := by
  show i ∈ ((View.whole main_v7_1).slice (win0_4.rect t)).set ↔ _
  rw [View.set_slice_whole, Rect.mem_set_unit]
  exact Iff.rfl

/-- Row `r` of the array lies in the band of point `r / 128`, and every point writes its block back. -/
theorem cover0_4 (i : S11008x2048.Idx) :
    ∃ t : Fin cfg0.N, (cfg0.win 4).flush t = true ∧ i ∈ ((cfg0.win 4).blk t).view.set := by
  have hi0 : (i 0).val < 11008 := (i 0).isLt
  have hi1 : (i 1).val < 2048 := (i 1).isLt
  have hN : cfg0.N = 86 := rfl
  obtain ⟨t, ht⟩ : ∃ t : Fin cfg0.N, t.val = (i 0).val / 128 := ⟨⟨(i 0).val / 128, by rw [hN]; omega⟩, rfl⟩
  obtain ⟨e00, e01, e10, e11, e20, e21, e30, e31, e40, e41⟩ := index_facts0 t
  refine ⟨t, flush0_4 t, ?_⟩
  rw [mem_blk0_4]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 2048 ≤ (i 1).val ∧ (i 1).val < win0_4.index t (1 : Fin 2) * 2048 + 2048; omega

/-- The high-field array after the call: at row `o`, column `p`, the high field of the packed word there as an
    integer, times the scale there, plus the offset there. -/
theorem arr0_4 (c : Dev nD) (o : Fin 11008) (p : Fin 2048) :
    ((dat0 (F := Ideal) V c).arrAt 4 cfg0.N : S11008x2048.Idx → EReal) (ix2 o p)
      = (((Cert.Spec.nibble ((V c main_v0 : S11008x2048.Idx → BitVec 32) (ix2 o p)) true).toInt : ℝ) : EReal)
          * (V c main_v4 : S11008x2048.Idx → EReal) (ix2 o p)
        + (V c main_v6 : S11008x2048.Idx → EReal) (ix2 o p) :=
  congrFun ((dat0 (F := Ideal) V c).arrAt_eq_of_cover 4
    (deq0 true (V c main_v0 : S11008x2048.Idx → BitVec 32) (V c main_v4 : S11008x2048.Idx → EReal) (V c main_v6 : S11008x2048.Idx → EReal))
    (fun t _ => flushed0_4_eq V c t) cover0_4) (ix2 o p)

end Cert.KernelIdeal.Calls

end
-- ==== Proof.KI.Blk1.lean ====
/-
  The second call — the tiled matrix product — reads its three inputs block by block. The grid is 16 by 11 by 4
  with the last axis (the contraction step) moving fastest, so point t has coordinates (t / 44, t / 4 % 11, t % 4).
  At that point the left factor's block is rows 1024·(t / 44) … and columns 1024·(t % 4) … of the 16384 by 4096
  array; the right factor's block is rows 1024·(t / 4 % 11) … and columns 1024·(t % 4) … of the 11264 by 4096 array;
  the bias block is columns 1024·(t / 4 % 11) … of the one row of 11264. Each block entry is therefore one entry of
  the array the call found on entry, at an index given by plain arithmetic on t.
-/
import proofs.«429469_j24721831756576_3_alg».proof.Proof.KI.Reg1Runs
import Idealize.ShloMosaic.Lib.Pipeline.Value
import Idealize.ShloMosaic.Lib.ValueIdx

set_option maxRecDepth 16384

noncomputable section

namespace Cert.KernelIdeal.Calls

open Cert.KernelIdeal Cert.KernelIdeal.Gen Idealize.ShloMosaic Idealize.ShloMosaic.ValueIdx Idealize.ShloMosaic.TcCoe

/-! ## The grid point's coordinates stay inside the arrays -/

/-- A point of the grid is one of 704. -/
theorem point_lt (t : Fin cfg1.N) : t.val < 704 := Gen.N_1 ▸ t.isLt

/-- Row `r` of the point's row block is a row of the 16384-row array. -/
theorem rowI_lt (t : Fin cfg1.N) (r : Fin 1024) : 1024 * (t.val / 44) + r.val < 16384 := by
  have ht := point_lt t
  have hr := r.isLt
  omega

/-- Column `q` of the point's column block is a row of the 11264-row weight array (a column of the result). -/
theorem colJ_lt (t : Fin cfg1.N) (q : Fin 1024) : 1024 * (t.val / 4 % 11) + q.val < 11264 := by
  have hq := q.isLt
  omega

/-- Place `kk` of the point's contraction step is a column of the 4096-column factors. -/
theorem kcol_lt (t : Fin cfg1.N) (kk : Fin 1024) : 1024 * (t.val % 4) + kk.val < 4096 := by
  have hk := kk.isLt
  omega

/-! ## The three index maps over the grid -/

/-- The left factor's block index at point `t`: block row `t / 44`, block column `t % 4`. -/
theorem index1_0 : ∀ t : Fin cfg1.N, win1_0.index t (0 : Fin 2) = t.val / 44 ∧ win1_0.index t (1 : Fin 2) = t.val % 4 :=
  (by decide +kernel : ∀ t : Fin grid1.N, win1_0.index t (0 : Fin 2) = t.val / 44 ∧ win1_0.index t (1 : Fin 2) = t.val % 4)

/-- The right factor's block index at point `t`: block row `t / 4 % 11`, block column `t % 4`. -/
theorem index1_1 : ∀ t : Fin cfg1.N, win1_1.index t (0 : Fin 2) = t.val / 4 % 11 ∧ win1_1.index t (1 : Fin 2) = t.val % 4 :=
  (by decide +kernel : ∀ t : Fin grid1.N, win1_1.index t (0 : Fin 2) = t.val / 4 % 11 ∧ win1_1.index t (1 : Fin 2) = t.val % 4)

/-- The bias row's block index at point `t`: block row 0, block column `t / 4 % 11`. -/
theorem index1_2 : ∀ t : Fin cfg1.N, win1_2.index t (0 : Fin 2) = 0 ∧ win1_2.index t (1 : Fin 2) = t.val / 4 % 11 :=
  (by decide +kernel : ∀ t : Fin grid1.N, win1_2.index t (0 : Fin 2) = 0 ∧ win1_2.index t (1 : Fin 2) = t.val / 4 % 11)

/-- The output's block index at point `t`: block row `t / 44`, block column `t / 4 % 11`. -/
theorem index1_3 : ∀ t : Fin cfg1.N, win1_3.index t (0 : Fin 2) = t.val / 44 ∧ win1_3.index t (1 : Fin 2) = t.val / 4 % 11 :=
  (by decide +kernel : ∀ t : Fin grid1.N, win1_3.index t (0 : Fin 2) = t.val / 44 ∧ win1_3.index t (1 : Fin 2) = t.val / 4 % 11)

variable (V : (c : Dev nD) → (b : Ref sig .tc) → Buf (Elt Ideal) ((c : Thread nD τ).loc b))

/-! ## The blocks, entry by entry -/

/-- The left factor's block at point `t`, at row `r` and place `kk`: the array's entry at row `1024·(t / 44) + r`,
    column `1024·(t % 4) + kk`. -/
theorem blk1_0 (c : Dev nD) (t : Fin cfg1.N) (r kk : Fin 1024) :
    (iblk1 (F := Ideal) V c 0 t : S1024x1024.Idx → EReal) (ix2 r kk)
      = (V c main_v15 : S16384x4096.Idx → EReal)
          (ix2 ⟨1024 * (t.val / 44) + r.val, rowI_lt t r⟩ ⟨1024 * (t.val % 4) + kk.val, kcol_lt t kk⟩) := by
  obtain ⟨e0, e1⟩ := index1_0 t
  unfold iblk1
  show (V c main_v15 : S16384x4096.Idx → EReal) (((cfg1.win 0).blk t).view.emb (ix2 r kk)) = _
  refine congrArg (V c main_v15 : S16384x4096.Idx → EReal) ?_
  funext a; apply Fin.ext
  match a with
  | ⟨0, _⟩ => show win1_0.index t (0 : Fin 2) * 1024 + 1 * r.val = 1024 * (t.val / 44) + r.val; omega
  | ⟨1, _⟩ => show win1_0.index t (1 : Fin 2) * 1024 + 1 * kk.val = 1024 * (t.val % 4) + kk.val; omega

/-- The right factor's block at point `t`, at row `q` and place `kk`: the array's entry at row
    `1024·(t / 4 % 11) + q`, column `1024·(t % 4) + kk`. -/
theorem blk1_1 (c : Dev nD) (t : Fin cfg1.N) (q kk : Fin 1024) :
    (iblk1 (F := Ideal) V c 1 t : S1024x1024.Idx → EReal) (ix2 q kk)
      = (V c main_v12 : S11264x4096.Idx → EReal)
          (ix2 ⟨1024 * (t.val / 4 % 11) + q.val, colJ_lt t q⟩ ⟨1024 * (t.val % 4) + kk.val, kcol_lt t kk⟩) := by
  obtain ⟨e0, e1⟩ := index1_1 t
  unfold iblk1
  show (V c main_v12 : S11264x4096.Idx → EReal) (((cfg1.win 1).blk t).view.emb (ix2 q kk)) = _
  refine congrArg (V c main_v12 : S11264x4096.Idx → EReal) ?_
  funext a; apply Fin.ext
  match a with
  | ⟨0, _⟩ => show win1_1.index t (0 : Fin 2) * 1024 + 1 * q.val = 1024 * (t.val / 4 % 11) + q.val; omega
  | ⟨1, _⟩ => show win1_1.index t (1 : Fin 2) * 1024 + 1 * kk.val = 1024 * (t.val % 4) + kk.val; omega

/-- The bias block at point `t`, at place `q` of its one row: the bias row's entry at column `1024·(t / 4 % 11) + q`. -/
theorem blk1_2 (c : Dev nD) (t : Fin cfg1.N) (q : Fin 1024) :
    (iblk1 (F := Ideal) V c 2 t : S1x1024.Idx → EReal) (ix2 ⟨0, Nat.one_pos⟩ q)
      = (V c main_v16 : S1x11264.Idx → EReal)
          (ix2 ⟨0, Nat.one_pos⟩ ⟨1024 * (t.val / 4 % 11) + q.val, colJ_lt t q⟩) := by
  obtain ⟨e0, e1⟩ := index1_2 t
  unfold iblk1
  show (V c main_v16 : S1x11264.Idx → EReal) (((cfg1.win 2).blk t).view.emb (ix2 ⟨0, Nat.one_pos⟩ q)) = _
  refine congrArg (V c main_v16 : S1x11264.Idx → EReal) ?_
  funext a; apply Fin.ext
  match a with
  | ⟨0, _⟩ => show win1_2.index t (0 : Fin 2) * 1 + 1 * 0 = 0; omega
  | ⟨1, _⟩ => show win1_2.index t (1 : Fin 2) * 1024 + 1 * q.val = 1024 * (t.val / 4 % 11) + q.val; omega

end Cert.KernelIdeal.Calls

end
-- ==== Proof.KI.MatPay.lean ====
/-
  The tiled matrix product's three pure values, each read at an entry (r, q) of the 1024×1024 block: the zero block
  is zero; the accumulating step adds to the accumulator the sum over the contracted column k of a(r, k) · b(q, k)
  (the second operand enters transposed); the closing step adds the bias row's entry of column q. And a sum over
  4096 terms is the sum of its four consecutive blocks of 1024 terms, added left to right from zero.
-/
import proofs.«429469_j24721831756576_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Algebra.BigOperators.Intervals
import Mathlib.Data.EReal.Basic

noncomputable section

open scoped BigOperators

namespace Cert.KernelIdeal.MatPay

open Cert.KernelIdeal Cert.KernelIdeal.Gen Idealize.ShloMosaic Idealize.ShloMosaic.ValueIdx

/-- The zero block reads zero at every entry. -/
theorem pay1_apply (r q : Fin 1024) : Gen.k1_pay1 (F := Ideal) (ix2 r q) = 0 := by
  unfold Gen.k1_pay1
  rw [shapeCast_self]
  exact Ideal.ofBits_zero_f32

/-- On the left operand of the product the row axis is the output's row … -/
theorem lhs_axis0 (i : S1024x1024.Idx) (c : dot_S1024x1024_S1024x1024_S1024x1024_1_1_0_0_n_n.contr.Idx) :
    (dot_S1024x1024_S1024x1024_S1024x1024_1_1_0_0_n_n.lhsIdx i c 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- … and the column axis is the contracted coordinate. -/
theorem lhs_axis1 (i : S1024x1024.Idx) (c : dot_S1024x1024_S1024x1024_S1024x1024_1_1_0_0_n_n.contr.Idx) :
    (dot_S1024x1024_S1024x1024_S1024x1024_1_1_0_0_n_n.lhsIdx i c 1).val = (c ⟨0, by decide⟩).val :=
  dot_S1024x1024_S1024x1024_S1024x1024_1_1_0_0_n_n.lhsIdx_val_of_single rfl i c
/-- On the right operand the row axis is the output's column … -/
theorem rhs_axis0 (i : S1024x1024.Idx) (c : dot_S1024x1024_S1024x1024_S1024x1024_1_1_0_0_n_n.contr.Idx) :
    (dot_S1024x1024_S1024x1024_S1024x1024_1_1_0_0_n_n.rhsIdx i c 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- … and the column axis is again the contracted coordinate: the second operand enters transposed. -/
theorem rhs_axis1 (i : S1024x1024.Idx) (c : dot_S1024x1024_S1024x1024_S1024x1024_1_1_0_0_n_n.contr.Idx) :
    (dot_S1024x1024_S1024x1024_S1024x1024_1_1_0_0_n_n.rhsIdx i c 1).val = (c ⟨0, by decide⟩).val :=
  dot_S1024x1024_S1024x1024_S1024x1024_1_1_0_0_n_n.rhsIdx_val_of_single rfl i c

/-- The product of a by the transpose of b into the zero block, at the entry (r, q): the sum over k of a(r, k) · b(q, k). -/
theorem matmul_nt_zero_apply (a b : FVec Ideal S1024x1024 .bf16) (r q : Fin 1024) :
    matmul (F := Ideal) dot_S1024x1024_S1024x1024_S1024x1024_1_1_0_0_n_n none a b (constant (F := Ideal) S1024x1024 .f32 0x00000000#32) (ix2 r q)
      = ∑ k : Fin 1024, a (ix2 r k) * b (ix2 q k) := by
  show FloatOps.matmul _ none a b _ (ix2 r q) = _
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 r q) ((contrEquiv1 dot_S1024x1024_S1024x1024_S1024x1024_1_1_0_0_n_n 1024 rfl rfl).symm k) = ix2 r k := funext fun ax => Fin.ext (by
    match ax with
    | ⟨0, _⟩ => exact lhs_axis0 _ _
    | ⟨1, _⟩ => exact (lhs_axis1 _ _).trans hk)
  have er : dot_S1024x1024_S1024x1024_S1024x1024_1_1_0_0_n_n.rhsIdx (ix2 r q) ((contrEquiv1 dot_S1024x1024_S1024x1024_S1024x1024_1_1_0_0_n_n 1024 rfl rfl).symm k) = ix2 q k := funext fun ax => Fin.ext (by
    match ax with
    | ⟨0, _⟩ => exact rhs_axis0 _ _
    | ⟨1, _⟩ => exact (rhs_axis1 _ _).trans hk)
  rw [el, er]

/-- The accumulating step at the entry (r, q). -/
theorem pay2_apply (acc : Vec Ideal S1024x1024 .f32) (a b : Vec Ideal S1024x1024 .bf16) (r q : Fin 1024) :
    Gen.k1_pay2 (F := Ideal) acc a b (ix2 r q) = acc (ix2 r q) + ∑ k : Fin 1024, a (ix2 r k) * b (ix2 q k) := by
  unfold Gen.k1_pay2
  rw [shapeCast_self, shapeCast_self, shapeCast_self, addf_apply]
  exact congrArg (acc (ix2 r q) + ·) (matmul_nt_zero_apply a b r q)

/-- The closing step at the entry (r, q): the accumulator plus the bias of column q. -/
theorem pay3_apply (acc : Vec Ideal S1024x1024 .f32) (bias : Vec Ideal S1x1024 .f32) (r q : Fin 1024) :
    Gen.k1_pay3 (F := Ideal) acc bias (ix2 r q) = acc (ix2 r q) + bias (ix2 ⟨0, Nat.one_pos⟩ q) := by
  unfold Gen.k1_pay3
  rw [shapeCast_self, addf_apply]
  refine congrArg (acc (ix2 r q) + ·) ?_
  exact broadcastTo_apply bias broadcasts_S1x1024_S1024x1024 (ix2 r q) (ix2 ⟨0, Nat.one_pos⟩ q) (fun ax => by
    match ax with
    | ⟨0, _⟩ => show (0 : Nat) = if (1 : Nat) = 1 then 0 else _; rw [if_pos rfl]
    | ⟨1, _⟩ => show q.val = if (1024 : Nat) = 1 then 0 else q.val; rw [if_neg (by decide)])

/-- A sum of 4096 terms is the sum of its four consecutive blocks of 1024 terms, added left to right from zero. -/
theorem sum_blocks (f : ℕ → EReal) :
    ∑ i : Fin 4096, f i.val
      = ((((0 + ∑ k : Fin 1024, f k.val) + ∑ k : Fin 1024, f (1024 + k.val)) + ∑ k : Fin 1024, f (2048 + k.val))
          + ∑ k : Fin 1024, f (3072 + k.val)) := by
  have e (g : ℕ → EReal) (n : ℕ) : ∑ k : Fin n, g k.val = ∑ k ∈ Finset.range n, g k := Fin.sum_univ_eq_sum_range g n
  rw [e f 4096, e f 1024, e (fun k => f (1024 + k)) 1024, e (fun k => f (2048 + k)) 1024,
    e (fun k => f (3072 + k)) 1024, zero_add]
  exact (Finset.sum_range_add f 3072 1024).trans (congrArg (· + ∑ k ∈ Finset.range 1024, f (3072 + k))
    ((Finset.sum_range_add f 2048 1024).trans (congrArg (· + ∑ k ∈ Finset.range 1024, f (2048 + k))
      (Finset.sum_range_add f 1024 1024))))

end Cert.KernelIdeal.MatPay

end
-- ==== Proof.KI.Val1.lean ====
/-
  The matrix-product call's values. What each case of the body leaves in the accumulator and in the output tile, as the
  three pure values of the body applied to the point's tiles; the accumulator through the four steps of a contraction,
  entry by entry: after step k it holds the products of one row of the left array with one row of the right array over
  the columns up to 1024·(k+1), added block by block from zero; and the output tile written at the last step: the full
  product over the 4096 columns plus the bias of the column.
-/
import proofs.«429469_j24721831756576_3_alg».proof.Proof.KI.Reg1
import proofs.«429469_j24721831756576_3_alg».proof.Proof.KI.MatPay
import proofs.«429469_j24721831756576_3_alg».proof.Proof.KI.Blk1
import Idealize.ShloMosaic.Lib.Pipeline.Value
import Idealize.ShloMosaic.Lib.ValueIdx
set_option maxRecDepth 16384

noncomputable section

open scoped BigOperators

namespace Cert.KernelIdeal.Calls

open Cert.KernelIdeal Cert.KernelIdeal.Gen
open Idealize.ShloMosaic Idealize.ShloMosaic.TcCoe Idealize.ShloMosaic.Tactic Idealize.ShloMosaic.ValueIdx
open Idealize.SL Idealize.SL.Sem

section Pieces
variable {F : FTy → Type} [FloatOps F]

/-- The two zero offsets of a whole-block rectangle, however they are spelt. -/
theorem hz2 : (![0, 0] : Fin 2 → Nat) = fun _ => 0 := funext fun a => by fin_cases a <;> rfl

/-- First step of a contraction: the accumulator is set to the zero block, read back, and the first product added. -/
theorem sout1_A_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) :
    sout1_A_0 c i arg3 harg3 arg4 harg4 arg5 harg5 arg6 harg6 arg7 harg7 hc0 hc1 x0 x1 x2 = Gen.k1_pay2 (Gen.k1_pay1 (F := F)) x0 x1 := by
  unfold sout1_A_0
  rw [View.read_writes_junk_eq_canon]
  unfold kernelRun1_A
  dsimp only
  sl_unfold_words
  rw [View.canon_cons_unit_zero (S := S1024x1024) hz2, View.readCov_unit_zero (S := S1024x1024) _ hz2]
  simp only [View.readAt_eq_ld, harg3.read_unread, harg4.read_unread, View.ld_unit_zero (S := S1024x1024) hz2]

/-- A middle step: the accumulator the step before left, plus this step's product. -/
theorem sout1_B_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) :
    sout1_B_0 c i arg3 harg3 arg4 harg4 arg5 harg5 arg6 harg6 arg7 harg7 hc0 hc1 x0 x1 x2 xs0 = Gen.k1_pay2 xs0 x0 x1 := by
  unfold sout1_B_0
  rw [View.read_writes_junk_eq_canon]
  unfold kernelRun1_B
  dsimp only
  sl_unfold_words
  rw [View.canon_unit_zero (S := S1024x1024) hz2]
  simp only [View.readAt_eq_ld, harg3.read_unread, harg4.read_unread, harg7.read_unread, View.ld_unit_zero (S := S1024x1024) hz2]

/-- The last step leaves in the accumulator what a middle step does. -/
theorem sout1_C_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) :
    sout1_C_0 c i arg3 harg3 arg4 harg4 arg5 harg5 arg6 harg6 arg7 harg7 hc0 hc1 x0 x1 x2 xs0 = Gen.k1_pay2 xs0 x0 x1 := by
  unfold sout1_C_0
  rw [View.read_writes_junk_eq_canon]
  unfold kernelRun1_C
  dsimp only
  sl_unfold_words
  rw [View.canon_unit_zero (S := S1024x1024) hz2]
  simp only [View.readAt_eq_ld, harg3.read_unread, harg4.read_unread, harg7.read_unread, View.ld_unit_zero (S := S1024x1024) hz2]

/-- The last step: the output block is the accumulator after this step's product, read back, plus the bias row. -/
theorem out1_C_3_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) :
    out1_C_3 c i arg3 harg3 arg4 harg4 arg5 harg5 arg6 harg6 arg7 harg7 hc0 hc1 x0 x1 x2 xs0 = Gen.k1_pay3 (Gen.k1_pay2 xs0 x0 x1) x2 := by
  unfold out1_C_3
  rw [View.read_writes_junk_eq_canon]
  unfold kernelRun1_C
  dsimp only
  sl_unfold_words
  rw [View.canon_unit_zero (S := S1024x1024) hz2, View.readCov_unit_zero (S := S1024x1024) _ hz2]
  simp only [View.readAt_eq_ld, harg3.read_unread, harg4.read_unread, harg5.read_unread, harg7.read_unread,
    View.ld_unit_zero (S := S1024x1024) hz2, View.ld_unit_zero (S := S1x1024) hz2]

end Pieces

section AtIdeal
variable (V : (c : Dev nD) → (b : Ref sig .tc) → Buf (Elt Ideal) ((c : Thread nD τ).loc b))

/-! ## The arrays and the tiles, at their literal types -/

/-- The left array (16384 rows of 4096 columns), the right array (11264 rows of 4096 columns; it enters transposed)
    and the bias row, as the call finds them. -/
abbrev xarr (c : Dev nD) : S16384x4096.Idx → EReal := V c main_v15
abbrev warr (c : Dev nD) : S11264x4096.Idx → EReal := V c main_v12
abbrev barr (c : Dev nD) : S1x11264.Idx → EReal := V c main_v16
/-- The three input tiles at a grid point. -/
abbrev xblk (c : Dev nD) (t : Fin cfg1.N) : Vec Ideal S1024x1024 .bf16 := iblk1 V c 0 t
abbrev wblk (c : Dev nD) (t : Fin cfg1.N) : Vec Ideal S1024x1024 .bf16 := iblk1 V c 1 t
abbrev bblk (c : Dev nD) (t : Fin cfg1.N) : Vec Ideal S1x1024 .f32 := iblk1 V c 2 t

/-! ## The accumulator through a contraction

Row `ro` of the left array and row `co` of the right array are fixed through the four steps of a contraction; step k
adds the products over the columns 1024·k … 1024·k + 1023. -/

/-- The product of the two arrays' entries in column `i` of rows `ro` and `co` (zero past the last column). -/
def term (c : Dev nD) (ro : Fin 16384) (co : Fin 11264) (i : ℕ) : EReal :=
  if h : i < 4096 then xarr V c (ix2 ro ⟨i, h⟩) * warr V c (ix2 co ⟨i, h⟩) else 0

/-- At a point whose contraction step starts at column `o`, the product of the two tiles' entries (r, kk) and (q, kk) is
    the arrays' product in column `o + kk`. -/
theorem tile_term (c : Dev nD) (t : Fin cfg1.N) (r q kk : Fin 1024) (ro : Fin 16384) (co : Fin 11264)
    (hro : ro.val = 1024 * (t.val / 44) + r.val) (hco : co.val = 1024 * (t.val / 4 % 11) + q.val)
    (o : ℕ) (ho : 1024 * (t.val % 4) = o) :
    xblk V c t (ix2 r kk) * wblk V c t (ix2 q kk) = term V c ro co (o + kk.val) := by
  have hlt : o + kk.val < 4096 := by rw [← ho]; exact kcol_lt t kk
  have e0 : (⟨1024 * (t.val / 44) + r.val, rowI_lt t r⟩ : Fin 16384) = ro := Fin.ext hro.symm
  have e1 : (⟨1024 * (t.val / 4 % 11) + q.val, colJ_lt t q⟩ : Fin 11264) = co := Fin.ext hco.symm
  have e2 : (⟨1024 * (t.val % 4) + kk.val, kcol_lt t kk⟩ : Fin 4096) = ⟨o + kk.val, hlt⟩ :=
    Fin.ext (congrArg (· + kk.val) ho)
  have ex : xblk V c t (ix2 r kk) = xarr V c (ix2 ro ⟨o + kk.val, hlt⟩) :=
    (blk1_0 V c t r kk).trans (by rw [e0, e2])
  have ew : wblk V c t (ix2 q kk) = warr V c (ix2 co ⟨o + kk.val, hlt⟩) :=
    (blk1_1 V c t q kk).trans (by rw [e1, e2])
  unfold term
  rw [dif_pos hlt, ex, ew]

/-- Past the first step, a step adds its products to what the step before left. -/
theorem acc_step (c : Dev nD) (t : Fin cfg1.N) (h0 : ¬t.val % 4 = 0) (h3 : ¬t.val % 4 = 3) (r q : Fin 1024)
    (ro : Fin 16384) (co : Fin 11264)
    (hro : ro.val = 1024 * (t.val / 44) + r.val) (hco : co.val = 1024 * (t.val / 4 % 11) + q.val)
    (o : ℕ) (ho : 1024 * (t.val % 4) = o) :
    (outsAt1 V c t.val t.isLt).2 (ix2 r q)
      = (outsAt1 V c (t.val - 1) (Nat.lt_of_le_of_lt (Nat.sub_le _ _) t.isLt)).2 (ix2 r q) + ∑ kk : Fin 1024, term V c ro co (o + kk.val) := by
  rw [outsAt1_B V c t h0 h3]; dsimp only
  refine (congrFun (sout1_B_0_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h3 ((hcond1_1 t).mp h)) (iblk1 V c 0 t) (iblk1 V c 1 t) (iblk1 V c 2 t) (outsAt1 V c (t.val - 1) (Nat.lt_of_le_of_lt (Nat.sub_le _ _) t.isLt)).2) (ix2 r q)).trans ?_
  refine (MatPay.pay2_apply (outsAt1 V c (t.val - 1) (Nat.lt_of_le_of_lt (Nat.sub_le _ _) t.isLt)).2 (xblk V c t) (wblk V c t) r q).trans ?_
  exact congrArg ((outsAt1 V c (t.val - 1) (Nat.lt_of_le_of_lt (Nat.sub_le _ _) t.isLt)).2 (ix2 r q) + ·)
    (Finset.sum_congr rfl fun kk _ => tile_term V c t r q kk ro co hro hco o ho)

/-- After the first step: the products over the first 1024 columns, added to zero. -/
theorem acc_at0 (c : Dev nD) (t : Fin cfg1.N) (h : t.val % 4 = 0) (r q : Fin 1024) (ro : Fin 16384) (co : Fin 11264)
    (hro : ro.val = 1024 * (t.val / 44) + r.val) (hco : co.val = 1024 * (t.val / 4 % 11) + q.val) :
    (outsAt1 V c t.val t.isLt).2 (ix2 r q) = 0 + ∑ kk : Fin 1024, term V c ro co kk.val := by
  have h3 : ¬t.val % 4 = 3 := by omega
  rw [outsAt1_A V c t h h3]; dsimp only
  refine (congrFun (sout1_A_0_eq (F := Ideal) c (grid1.coords t) (ms1_0 t) (hs1_0 t) (ms1_1 t) (hs1_1 t) (ms1_2 t) (hs1_2 t) (ms1_3 t) (hs1_3 t) scM1_0 (Memref.isWhole_whole _) ((hcond1_0 t).mpr h) (fun h' => h3 ((hcond1_1 t).mp h')) (iblk1 V c 0 t) (iblk1 V c 1 t) (iblk1 V c 2 t)) (ix2 r q)).trans ?_
  refine (MatPay.pay2_apply (Gen.k1_pay1 (F := Ideal)) (xblk V c t) (wblk V c t) r q).trans ?_
  refine congrArg₂ (· + ·) (MatPay.pay1_apply r q) (Finset.sum_congr rfl fun kk _ => ?_)
  refine (tile_term V c t r q kk ro co hro hco 0 (by omega)).trans ?_
  exact congrArg (term V c ro co) (Nat.zero_add kk.val)

/-- After the second step. -/
theorem acc_at1 (c : Dev nD) (t : Fin cfg1.N) (h : t.val % 4 = 1) (r q : Fin 1024) (ro : Fin 16384) (co : Fin 11264)
    (hro : ro.val = 1024 * (t.val / 44) + r.val) (hco : co.val = 1024 * (t.val / 4 % 11) + q.val) :
    (outsAt1 V c t.val t.isLt).2 (ix2 r q)
      = (0 + ∑ kk : Fin 1024, term V c ro co kk.val) + ∑ kk : Fin 1024, term V c ro co (1024 + kk.val) := by
  refine (acc_step V c t (by omega) (by omega) r q ro co hro hco 1024 (by omega)).trans ?_
  exact congrArg (· + ∑ kk : Fin 1024, term V c ro co (1024 + kk.val))
    (acc_at0 V c ⟨t.val - 1, Nat.lt_of_le_of_lt (Nat.sub_le _ _) t.isLt⟩ (by show (t.val - 1) % 4 = 0; omega) r q ro co
      (by show ro.val = 1024 * ((t.val - 1) / 44) + r.val; omega) (by show co.val = 1024 * ((t.val - 1) / 4 % 11) + q.val; omega))

/-- After the third step. -/
theorem acc_at2 (c : Dev nD) (t : Fin cfg1.N) (h : t.val % 4 = 2) (r q : Fin 1024) (ro : Fin 16384) (co : Fin 11264)
    (hro : ro.val = 1024 * (t.val / 44) + r.val) (hco : co.val = 1024 * (t.val / 4 % 11) + q.val) :
    (outsAt1 V c t.val t.isLt).2 (ix2 r q)
      = ((0 + ∑ kk : Fin 1024, term V c ro co kk.val) + ∑ kk : Fin 1024, term V c ro co (1024 + kk.val))
        + ∑ kk : Fin 1024, term V c ro co (2048 + kk.val) := by
  refine (acc_step V c t (by omega) (by omega) r q ro co hro hco 2048 (by omega)).trans ?_
  exact congrArg (· + ∑ kk : Fin 1024, term V c ro co (2048 + kk.val))
    (acc_at1 V c ⟨t.val - 1, Nat.lt_of_le_of_lt (Nat.sub_le _ _) t.isLt⟩ (by show (t.val - 1) % 4 = 1; omega) r q ro co
      (by show ro.val = 1024 * ((t.val - 1) / 44) + r.val; omega) (by show co.val = 1024 * ((t.val - 1) / 4 % 11) + q.val; omega))

/-! ## The output tile at the last step of a contraction -/

/-- The output tile written at the last step of a contraction, at its entry (r, q): the full product of row
    1024·(t/44) + r of the left array with row 1024·(t/4 % 11) + q of the right array, plus the bias of that column. -/
theorem out_at (c : Dev nD) (t : Fin cfg1.N) (h3 : t.val % 4 = 3) (r q : Fin 1024) :
    (outsAt1 (F := Ideal) V c t.val t.isLt).1 (ix2 r q)
      = (∑ i : Fin 4096, xarr V c (ix2 ⟨1024 * (t.val / 44) + r.val, rowI_lt t r⟩ i)
            * warr V c (ix2 ⟨1024 * (t.val / 4 % 11) + q.val, colJ_lt t q⟩ i))
        + barr V c (ix2 ⟨0, Nat.one_pos⟩ ⟨1024 * (t.val / 4 % 11) + q.val, colJ_lt t q⟩) := by
  have h0 : ¬t.val % 4 = 0 := by omega
  rw [outsAt1_C V c t h0 h3]; dsimp only
  refine (congrFun (out1_C_3_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h3) (iblk1 V c 0 t) (iblk1 V c 1 t) (iblk1 V c 2 t) (outsAt1 V c (t.val - 1) (Nat.lt_of_le_of_lt (Nat.sub_le _ _) t.isLt)).2) (ix2 r q)).trans ?_
  refine (MatPay.pay3_apply (Gen.k1_pay2 (F := Ideal) (outsAt1 V c (t.val - 1) (Nat.lt_of_le_of_lt (Nat.sub_le _ _) t.isLt)).2 (xblk V c t) (wblk V c t)) (bblk V c t) r q).trans ?_
  refine congrArg₂ (· + ·) ?_ (blk1_2 V c t q)
  refine (MatPay.pay2_apply (outsAt1 V c (t.val - 1) (Nat.lt_of_le_of_lt (Nat.sub_le _ _) t.isLt)).2 (xblk V c t) (wblk V c t) r q).trans ?_
  refine (congrArg₂ (· + ·)
    (acc_at2 V c ⟨t.val - 1, Nat.lt_of_le_of_lt (Nat.sub_le _ _) t.isLt⟩ (by show (t.val - 1) % 4 = 2; omega) r q
      ⟨1024 * (t.val / 44) + r.val, rowI_lt t r⟩ ⟨1024 * (t.val / 4 % 11) + q.val, colJ_lt t q⟩
      (by show 1024 * (t.val / 44) + r.val = 1024 * ((t.val - 1) / 44) + r.val; omega)
      (by show 1024 * (t.val / 4 % 11) + q.val = 1024 * ((t.val - 1) / 4 % 11) + q.val; omega))
    (Finset.sum_congr rfl fun kk _ => tile_term V c t r q kk ⟨1024 * (t.val / 44) + r.val, rowI_lt t r⟩
      ⟨1024 * (t.val / 4 % 11) + q.val, colJ_lt t q⟩ rfl rfl 3072 (by omega))).trans ?_
  refine (MatPay.sum_blocks (term V c ⟨1024 * (t.val / 44) + r.val, rowI_lt t r⟩ ⟨1024 * (t.val / 4 % 11) + q.val, colJ_lt t q⟩)).symm.trans ?_
  exact Finset.sum_congr rfl fun i _ => by unfold term; rw [dif_pos i.isLt]

end AtIdeal

end Cert.KernelIdeal.Calls
end
-- ==== Proof.KI.Fin1.lean ====
/-
  What the second call — the tiled matrix product — leaves in its output array. The output window is written back
  only at the last step of each contraction (the points t with t % 4 = 3), and what is written there is, entry by
  entry, the full sum over the 4096 contraction places of left entry times right entry, plus the bias entry of the
  column. The block written at such a point is rows 1024·(t / 44) … and columns 1024·(t / 4 % 11) … of the 16384 by
  11264 array; the 16 · 11 such blocks tile the array (entry (R, n) lies in the block of the point
  44·(R / 1024) + 4·(n / 1024) + 3). So the array ends as one function of the three input arrays: at row R and
  column n, the sum over i of X(R, i) · W(n, i), plus B(0, n).
-/
import proofs.«429469_j24721831756576_3_alg».proof.Proof.KI.Reg1
import proofs.«429469_j24721831756576_3_alg».proof.Proof.KI.Blk1
import proofs.«429469_j24721831756576_3_alg».proof.Proof.KI.Val1
import Idealize.ShloMosaic.Lib.Pipeline.Value
import Idealize.ShloMosaic.Lib.ValueIdx

set_option maxRecDepth 16384

noncomputable section

namespace Cert.KernelIdeal.Calls

open Cert.KernelIdeal Cert.KernelIdeal.Gen Idealize.ShloMosaic Idealize.ShloMosaic.ValueIdx Idealize.ShloMosaic.TcCoe
open scoped BigOperators

variable (V : (c : Dev nD) → (b : Ref sig .tc) → Buf (Elt Ideal) ((c : Thread nD τ).loc b))

/-! ## The output array as one function of the three input arrays -/

/-- The matrix product with the bias added, entry by entry: at row `j 0` and column `j 1`, the sum over the 4096
    contraction places of left entry times right entry, plus the bias entry of the column. -/
def prod1 (X : S16384x4096.Idx → EReal) (Wp : S11264x4096.Idx → EReal) (B : S1x11264.Idx → EReal) : S16384x11264.Idx → EReal :=
  fun j => (∑ i : Fin 4096, X (ix2 (n0 := 16384) (j 0) i) * Wp (ix2 (n0 := 11264) (j 1) i)) + B (ix2 (n1 := 11264) ⟨0, Nat.one_pos⟩ (j 1))

/-- What a point at the last step of a contraction writes back is its block of that one function of the arrays:
    the block entry at row `r`, column `q` is the full product sum at row `1024·(t / 44) + r`, column
    `1024·(t / 4 % 11) + q`, and that is where the block's entry sits in the array. -/
theorem flushed1_3_eq (c : Dev nD) (t : Fin cfg1.N) (hf : (cfg1.win 3).flush t = true) :
    (dat1 (F := Ideal) V c).flushed 3 t
      = ((cfg1.win 3).blk t).view.read (Elt Ideal)
          (prod1 (xarr V c) (warr V c) (barr V c)) := by
  have h3 : t.val % 4 = 3 := (flush1_3 t).mp hf
  show (cfg1.win 3).cut (grid1.coords t) ((dat1 (F := Ideal) V c).after 3 t) = _
  rw [after1_3]
  obtain ⟨e0, e1⟩ := index1_3 t
  funext j
  have hj0 : (j 0).val < 1024 := (j 0).isLt
  have hj1 : (j 1).val < 1024 := (j 1).isLt
  have hx : (cfg1.win 3).xinj (grid1.coords t) j = (ix2 (⟨(j 0).val, hj0⟩ : Fin 1024) (⟨(j 1).val, hj1⟩ : Fin 1024) : S1024x1024.Idx) := by
    funext a
    match a with
    | ⟨0, _⟩ => rfl
    | ⟨1, _⟩ => rfl
  have hemb : ((cfg1.win 3).blk t).view.emb j
      = (ix2 (⟨1024 * (t.val / 44) + (j 0).val, rowI_lt t ⟨(j 0).val, hj0⟩⟩ : Fin 16384)
          (⟨1024 * (t.val / 4 % 11) + (j 1).val, colJ_lt t ⟨(j 1).val, hj1⟩⟩ : Fin 11264) : S16384x11264.Idx) := by
    funext a; apply Fin.ext
    match a with
    | ⟨0, _⟩ => show win1_3.index t (0 : Fin 2) * 1024 + 1 * (j 0).val = 1024 * (t.val / 44) + (j 0).val; omega
    | ⟨1, _⟩ => show win1_3.index t (1 : Fin 2) * 1024 + 1 * (j 1).val = 1024 * (t.val / 4 % 11) + (j 1).val; omega
  show ((outsAt1 (F := Ideal) V c t.val t.isLt).1 : S1024x1024.Idx → EReal) ((cfg1.win 3).xinj (grid1.coords t) j)
      = prod1 (xarr V c) (warr V c) (barr V c) (((cfg1.win 3).blk t).view.emb j)
  refine (congrArg ((outsAt1 (F := Ideal) V c t.val t.isLt).1 : S1024x1024.Idx → EReal) hx).trans ?_
  refine (out_at V c t h3 _ _).trans ?_
  refine Eq.trans ?_ (congrArg (prod1 (xarr V c) (warr V c) (barr V c)) hemb).symm
  rfl

/-- An index of the array lies in point `t`'s block iff each coordinate lies in the block's range on its axis. -/
theorem mem_blk1_3 (t : Fin cfg1.N) (i : S16384x11264.Idx) :
    i ∈ ((cfg1.win 3).blk t).view.set
      ↔ ∀ a : Fin 2, win1_3.index t a * S1024x1024.size a ≤ (i a).val
          ∧ (i a).val < win1_3.index t a * S1024x1024.size a + S1024x1024.size a := by
  show i ∈ ((View.whole main_v17).slice (win1_3.rect t)).set ↔ _
  rw [View.set_slice_whole, Rect.mem_set_unit]
  exact Iff.rfl

/-- Entry `(R, n)` lies in the block of the point `44·(R / 1024) + 4·(n / 1024) + 3`, whose contraction step is the
    last, so that point writes its block back. -/
theorem cover1_3 (i : S16384x11264.Idx) :
    ∃ t : Fin cfg1.N, (cfg1.win 3).flush t = true ∧ i ∈ ((cfg1.win 3).blk t).view.set := by
  have hi0 : (i 0).val < 16384 := (i 0).isLt
  have hi1 : (i 1).val < 11264 := (i 1).isLt
  have hN : cfg1.N = 704 := Gen.N_1
  obtain ⟨t, ht⟩ : ∃ t : Fin cfg1.N, t.val = 44 * ((i 0).val / 1024) + 4 * ((i 1).val / 1024) + 3 :=
    ⟨⟨44 * ((i 0).val / 1024) + 4 * ((i 1).val / 1024) + 3, by rw [hN]; omega⟩, rfl⟩
  obtain ⟨e0, e1⟩ := index1_3 t
  refine ⟨t, (flush1_3 t).mpr (by omega), ?_⟩
  rw [mem_blk1_3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- The output array after the call: at row `R`, column `n`, the sum over the contraction places of left entry times
    right entry, plus the bias entry of column `n`. -/
theorem arr1_3 (c : Dev nD) (R : Fin 16384) (n : Fin 11264) :
    ((dat1 (F := Ideal) V c).arrAt 3 cfg1.N : S16384x11264.Idx → EReal) (ix2 R n)
      = (∑ i : Fin 4096, xarr V c (ix2 R i) * warr V c (ix2 n i))
        + barr V c (ix2 ⟨0, Nat.one_pos⟩ n) :=
  (congrFun ((dat1 (F := Ideal) V c).arrAt_eq_of_cover 3
    (prod1 (xarr V c) (warr V c) (barr V c))
    (fun t hf => flushed1_3_eq V c t hf) cover1_3) (ix2 R n)).trans rfl

end Cert.KernelIdeal.Calls

end
-- ==== Proof.KI.Bridge.lean ====
/-
  The kernel program's result is the specification's.

  The last host stretch cuts the second call's result to its first 11008 columns and splits its rows into
  (batch, row). The second call leaves, at row R and column n, the contraction over the 4096 input columns of its
  left operand's row R with its right operand's row n, plus its third operand at n. The left operand is the input
  with its two leading axes merged; the third is the bias extended by zeros; the right operand is the two half
  matrices the first call leaves, interleaved column by column and extended by zero rows. The first call leaves,
  at row o and column p, the low (resp. high) 4-bit field of word o·2048 + p as a number, times the scale of group
  o·512 + p/4, plus that group's offset. Column i of the interleaved matrix is column i/2 of the low half when i is
  even and of the high half when i is odd, and (i/2)/4 = i/8: the entry is the specification's weight at (o, i).
-/
import proofs.«429469_j24721831756576_3_alg».proof.Proof.KI.Run
import proofs.«429469_j24721831756576_3_alg».proof.Proof.KI.Glue
import proofs.«429469_j24721831756576_3_alg».proof.Proof.KI.Val0
import proofs.«429469_j24721831756576_3_alg».proof.Proof.KI.Fin1
import proofs.«429469_j24721831756576_3_alg».proof.Proof.Spec

set_option maxRecDepth 16384

noncomputable section

open scoped BigOperators

namespace Cert.KernelIdeal.Calls

open Cert.KernelIdeal Cert.KernelIdeal.Gen Cert.KernelIdeal.Glue
open Idealize.ShloMosaic Idealize.ShloMosaic.ValueIdx Idealize.ShloMosaic.TcCoe
open Idealize.SL.Sem

variable (m : (ℓ : Loc nD τ sig) → Buf (Elt Ideal) ℓ) (ρ : Dev nD → PrngReg)

/-! ## Buffers a stretch or a call leaves alone -/

/-- A buffer the first stretch does not write holds at the first call's entry what it was launched with. -/
theorem W1_keep (c : Dev nD) (r : Ref sig .tc) (h0 : r ∉ hostOps0_W) :
    W1 (F := Ideal) m ρ c (Proc.devRef .tc r) = m ((c : Thread nD τ).loc r) :=
  (StableHlo.after_of_writes_sub hostOps0 _ hostOps0_writes h0).trans rfl

/-- Nor does the first call change it, unless it is one of the call's arrays. -/
theorem W2_keep (c : Dev nD) (r : Ref sig .tc) (h0 : r ∉ hostOps0_W) (a0 : ∀ w, Pipeline.arrRef spec0 w ≠ r) :
    W2 (F := Ideal) m ρ c (Proc.devRef .tc r) = m ((c : Thread nD τ).loc r) :=
  (W2_of_ne m ρ c r a0).trans (W1_keep m ρ c r h0)

theorem W4_keep (c : Dev nD) (r : Ref sig .tc) (h1 : r ∉ hostOps1_W) (h11 : r ∉ hostOps1_1_W) :
    W4 (F := Ideal) m ρ c (Proc.devRef .tc r) = W2 (F := Ideal) m ρ c (Proc.devRef .tc r) :=
  (StableHlo.after_of_writes_sub hostOps1_1 _ hostOps1_1_writes h11).trans
    (StableHlo.after_of_writes_sub hostOps1 _ hostOps1_writes h1)

theorem W6_keep (c : Dev nD) (r : Ref sig .tc) (h12 : r ∉ hostOps1_2_W) (h13 : r ∉ hostOps1_3_W) :
    W6 (F := Ideal) m ρ c (Proc.devRef .tc r) = W4 (F := Ideal) m ρ c (Proc.devRef .tc r) :=
  (StableHlo.after_of_writes_sub hostOps1_3 _ hostOps1_3_writes h13).trans
    (StableHlo.after_of_writes_sub hostOps1_2 _ hostOps1_2_writes h12)

theorem W7_keep (c : Dev nD) (r : Ref sig .tc) (h14 : r ∉ hostOps1_4_W) :
    W7 (F := Ideal) m ρ c (Proc.devRef .tc r) = W6 (F := Ideal) m ρ c (Proc.devRef .tc r) :=
  StableHlo.after_of_writes_sub hostOps1_4 _ hostOps1_4_writes h14

/-- The input array is still the launched one when the last stretch before the second call starts. -/
theorem W6_arg0 (c : Dev nD) (j : S8x2048x4096.Idx) :
    (rd (W6 (F := Ideal) m ρ c) main_arg0 : S8x2048x4096.Idx → EReal) j
      = (m ((c : Thread nD τ).loc main_arg0) : S8x2048x4096.Idx → EReal) j :=
  congrFun ((W6_keep m ρ c main_arg0 (by decide) (by decide)).trans
    ((W4_keep m ρ c main_arg0 (by decide) (by decide)).trans (W2_keep m ρ c main_arg0 (by decide) (by decide)))) j

/-- The bias is still the launched one when the bias is extended. -/
theorem W4_arg4 (c : Dev nD) (j : S11008.Idx) :
    (rd (W4 (F := Ideal) m ρ c) main_arg4 : S11008.Idx → EReal) j
      = (m ((c : Thread nD τ).loc main_arg4) : S11008.Idx → EReal) j :=
  congrFun ((W4_keep m ρ c main_arg4 (by decide) (by decide)).trans (W2_keep m ρ c main_arg4 (by decide) (by decide))) j

/-! ## The second call's three operands -/

theorem ix3_div_mod (b : Fin 8) (s : Fin 2048) (i : Fin 4096) (h1 : (b.val * 2048 + s.val) / 2048 < 8)
    (h2 : (b.val * 2048 + s.val) % 2048 < 2048) :
    (ix3 (⟨(b.val * 2048 + s.val) / 2048, h1⟩ : Fin 8) (⟨(b.val * 2048 + s.val) % 2048, h2⟩ : Fin 2048) i)
      = ix3 b s i := by
  have hs : s.val < 2048 := s.isLt
  have e1 : (⟨(b.val * 2048 + s.val) / 2048, h1⟩ : Fin 8) = b := Fin.ext (by show (b.val * 2048 + s.val) / 2048 = b.val; omega)
  have e2 : (⟨(b.val * 2048 + s.val) % 2048, h2⟩ : Fin 2048) = s := Fin.ext (by show (b.val * 2048 + s.val) % 2048 = s.val; omega)
  rw [e1, e2]

/-- The left operand: row b·2048 + s is row (b, s) of the input. -/
theorem x2d_at (c : Dev nD) (b : Fin 8) (s : Fin 2048) (i : Fin 4096) (hR : b.val * 2048 + s.val < 16384) :
    (E7 (F := Ideal) m ρ c main_v15 : S16384x4096.Idx → EReal) (ix2 (⟨b.val * 2048 + s.val, hR⟩ : Fin 16384) i)
      = (m ((c : Thread nD τ).loc main_arg0) : S8x2048x4096.Idx → EReal) (ix3 b s i) := by
  refine (g_v15 (W6 (F := Ideal) m ρ c) ⟨b.val * 2048 + s.val, hR⟩ i).trans ?_
  refine (W6_arg0 m ρ c _).trans ?_
  exact congrArg (m ((c : Thread nD τ).loc main_arg0) : S8x2048x4096.Idx → EReal) (ix3_div_mod b s i _ _)

/-- The third operand below 11008: the bias. -/
theorem bias_at (c : Dev nD) (o : Fin 11008) (hn : o.val < 11264) :
    (E7 (F := Ideal) m ρ c main_v16 : S1x11264.Idx → EReal) (ix2 (⟨0, Nat.one_pos⟩ : Fin 1) (⟨o.val, hn⟩ : Fin 11264))
      = (m ((c : Thread nD τ).loc main_arg4) : S11008.Idx → EReal) (ix1 o) := by
  refine (g_v16 (W6 (F := Ideal) m ρ c) ⟨o.val, hn⟩).trans ?_
  refine (g_v13 (W4 (F := Ideal) m ρ c) ⟨o.val, hn⟩).trans ?_
  refine (dif_pos (show (⟨o.val, hn⟩ : Fin 11264).val < 11008 from o.isLt)).trans ?_
  exact W4_arg4 m ρ c (ix1 o)

/-! ## The first call's inputs and outputs -/

/-- The packed words as the first call finds them: entry (o, p) is word o·2048 + p. -/
theorem words_at (c : Dev nD) (o : Fin 11008) (p : Fin 2048) (h : o.val * 2048 + p.val < 22544384) :
    (E1 (F := Ideal) m ρ c main_v0 : S11008x2048.Idx → BitVec 32) (ix2 o p)
      = (m ((c : Thread nD τ).loc main_arg1) : S22544384.Idx → BitVec 32) (ix1 ⟨o.val * 2048 + p.val, h⟩) :=
  g_v0 (W0 (F := Ideal) m ρ c) o p

/-- The scales as the first call finds them: entry (o, p) is the scale of group o·512 + p/4. -/
theorem scales_at (c : Dev nD) (o : Fin 11008) (p : Fin 2048) (h : o.val * 512 + p.val / 4 < 5636096) :
    (E1 (F := Ideal) m ρ c main_v4 : S11008x2048.Idx → EReal) (ix2 o p)
      = (m ((c : Thread nD τ).loc main_arg2) : S5636096.Idx → EReal) (ix1 ⟨o.val * 512 + p.val / 4, h⟩) :=
  g_v4 (W0 (F := Ideal) m ρ c) o p

/-- The offsets likewise. -/
theorem offsets_at (c : Dev nD) (o : Fin 11008) (p : Fin 2048) (h : o.val * 512 + p.val / 4 < 5636096) :
    (E1 (F := Ideal) m ρ c main_v6 : S11008x2048.Idx → EReal) (ix2 o p)
      = (m ((c : Thread nD τ).loc main_arg3) : S5636096.Idx → EReal) (ix1 ⟨o.val * 512 + p.val / 4, h⟩) :=
  g_v6 (W0 (F := Ideal) m ρ c) o p

/-- The low-field half after the first call: the low field of word o·2048 + p as a number, times the group's
    scale, plus the group's offset. -/
theorem low_half_at (c : Dev nD) (o : Fin 11008) (p : Fin 2048) (hw : o.val * 2048 + p.val < 22544384)
    (hg : o.val * 512 + p.val / 4 < 5636096) :
    (rd (W2 (F := Ideal) m ρ c) main_v7_0 : S11008x2048.Idx → EReal) (ix2 o p)
      = (((Cert.Spec.nibble ((m ((c : Thread nD τ).loc main_arg1) : S22544384.Idx → BitVec 32)
            (ix1 ⟨o.val * 2048 + p.val, hw⟩)) false).toInt : ℝ) : EReal)
          * (m ((c : Thread nD τ).loc main_arg2) : S5636096.Idx → EReal) (ix1 ⟨o.val * 512 + p.val / 4, hg⟩)
        + (m ((c : Thread nD τ).loc main_arg3) : S5636096.Idx → EReal) (ix1 ⟨o.val * 512 + p.val / 4, hg⟩) := by
  refine (congrFun (W2_arr m ρ c 3) (ix2 o p)).trans ?_
  refine (arr0_3 (E1 (F := Ideal) m ρ) c o p).trans ?_
  rw [words_at m ρ c o p hw, scales_at m ρ c o p hg, offsets_at m ρ c o p hg]

/-- The high-field half after the first call. -/
theorem high_half_at (c : Dev nD) (o : Fin 11008) (p : Fin 2048) (hw : o.val * 2048 + p.val < 22544384)
    (hg : o.val * 512 + p.val / 4 < 5636096) :
    (rd (W2 (F := Ideal) m ρ c) main_v7_1 : S11008x2048.Idx → EReal) (ix2 o p)
      = (((Cert.Spec.nibble ((m ((c : Thread nD τ).loc main_arg1) : S22544384.Idx → BitVec 32)
            (ix1 ⟨o.val * 2048 + p.val, hw⟩)) true).toInt : ℝ) : EReal)
          * (m ((c : Thread nD τ).loc main_arg2) : S5636096.Idx → EReal) (ix1 ⟨o.val * 512 + p.val / 4, hg⟩)
        + (m ((c : Thread nD τ).loc main_arg3) : S5636096.Idx → EReal) (ix1 ⟨o.val * 512 + p.val / 4, hg⟩) := by
  refine (congrFun (W2_arr m ρ c 4) (ix2 o p)).trans ?_
  refine (arr0_4 (E1 (F := Ideal) m ρ) c o p).trans ?_
  rw [words_at m ρ c o p hw, scales_at m ρ c o p hg, offsets_at m ρ c o p hg]

/-! ## The right operand -/

/-- The right operand below row 11008: the specification's weight. -/
theorem wpad_at (c : Dev nD) (o : Fin 11008) (i : Fin 4096) (hn : o.val < 11264) :
    (E7 (F := Ideal) m ρ c main_v12 : S11264x4096.Idx → EReal) (ix2 (⟨o.val, hn⟩ : Fin 11264) i)
      = Cert.Spec.weight (m ((c : Thread nD τ).loc main_arg1)) (m ((c : Thread nD τ).loc main_arg2))
          (m ((c : Thread nD τ).loc main_arg3)) o i := by
  have ho : o.val < 11008 := o.isLt
  have hi : i.val < 4096 := i.isLt
  have hp2 : i.val / 2 < 2048 := by omega
  have hw : o.val * 2048 + i.val / 2 < 22544384 := by omega
  have hg : o.val * 512 + i.val / 2 / 4 < 5636096 := by omega
  have h8 : o.val * 512 + i.val / 2 / 4 = o.val * 512 + i.val / 8 := by omega
  have eg : (⟨o.val * 512 + i.val / 2 / 4, hg⟩ : Fin 5636096) = ⟨o.val * 512 + i.val / 8, Cert.Spec.gr_lt o i⟩ :=
    Fin.ext h8
  have e74 : (E7 (F := Ideal) m ρ c main_v12 : S11264x4096.Idx → EReal)
      = (rd (W4 (F := Ideal) m ρ c) main_v12 : S11264x4096.Idx → EReal) :=
    (W7_keep m ρ c main_v12 (by decide)).trans (W6_keep m ρ c main_v12 (by decide) (by decide))
  refine (congrFun e74 _).trans ?_
  refine (g_v12 (W2 (F := Ideal) m ρ c) ⟨o.val, hn⟩ i).trans ?_
  refine (dif_pos (show (⟨o.val, hn⟩ : Fin 11264).val < 11008 from o.isLt)).trans ?_
  unfold Cert.Spec.weight
  by_cases hp : i.val % 2 = 0
  · refine (if_pos hp).trans ?_
    refine (low_half_at m ρ c o ⟨i.val / 2, hp2⟩ hw hg).trans ?_
    have hb : (i.val % 2 == 1) = false := by rw [hp]; rfl
    rw [eg, hb]
  · refine (if_neg hp).trans ?_
    refine (high_half_at m ρ c o ⟨i.val / 2, hp2⟩ hw hg).trans ?_
    have h1 : i.val % 2 = 1 := by omega
    have hb : (i.val % 2 == 1) = true := by rw [h1]; rfl
    rw [eg, hb]

/-! ## The result -/

/-- The kernel program's result array is the specification's. -/
theorem kernel_result (c : Dev nD) :
    (W9 (F := Ideal) m ρ c (Proc.devRef .tc main_v19) : S8x2048x11008.Idx → EReal)
      = Cert.Spec.result (m ((c : Thread nD τ).loc main_arg0)) (m ((c : Thread nD τ).loc main_arg1))
          (m ((c : Thread nD τ).loc main_arg2)) (m ((c : Thread nD τ).loc main_arg3))
          (m ((c : Thread nD τ).loc main_arg4)) := by
  funext j
  obtain ⟨b, s, o, rfl⟩ : ∃ (b : Fin 8) (s : Fin 2048) (o : Fin 11008), j = ix3 b s o :=
    ⟨j 0, j 1, j 2, eq_ix3 j⟩
  have hb : b.val < 8 := b.isLt
  have hs : s.val < 2048 := s.isLt
  have ho : o.val < 11008 := o.isLt
  have hR : b.val * 2048 + s.val < 16384 := by omega
  have hn : o.val < 11264 := by omega
  refine (g_v19 (W8 (F := Ideal) m ρ c) b s o).trans ?_
  refine (congrFun (W8_arr m ρ c 3) (ix2 (⟨b.val * 2048 + s.val, hR⟩ : Fin 16384) (⟨o.val, hn⟩ : Fin 11264))).trans ?_
  refine (arr1_3 (E7 (F := Ideal) m ρ) c ⟨b.val * 2048 + s.val, hR⟩ ⟨o.val, hn⟩).trans ?_
  rw [Cert.Spec.result_apply]
  unfold Cert.Spec.resultAt
  exact congrArg₂ (fun (t u : EReal) => t + u)
    (Finset.sum_congr rfl fun i _ => congrArg₂ (fun (t u : EReal) => t * u) (x2d_at m ρ c b s i hR) (wpad_at m ρ c o i hn))
    (bias_at m ρ c o hn)

end Cert.KernelIdeal.Calls

end
-- ==== Proof.RefRead.lean ====
/-
  The reference's run and its operations read at an index, gathered under one name for the modules that compare
  the two programs' results.
-/
import proofs.«429469_j24721831756576_3_alg».proof.Proof.Gen.ReferenceIdeal.Run
import proofs.«429469_j24721831756576_3_alg».proof.Proof.Gen.ReferenceIdeal.Read
-- ==== Proof.RefSide.lean ====
/-
  The reference program's result is the specification's.

  The reference splits every packed word into its low and its high 4-bit field, lays the two fields side by side,
  flattens them, regroups the flat array by eights, converts, scales and offsets each group, flattens again and
  cuts the flat array into rows of 4096: row o, column k of the weight matrix is flat element o·4096 + k, whose
  group is o·512 + k/8 and whose field is field k mod 2 of word o·2048 + k/2. The result is the contraction of the
  input with that matrix over the 4096 columns, plus the bias.
-/
import proofs.«429469_j24721831756576_3_alg».proof.Proof.RefRead
import proofs.«429469_j24721831756576_3_alg».proof.Proof.Spec
import Idealize.ShloMosaic.Lib.Pipeline.Value
import Idealize.ShloMosaic.Lib.ValueIdx
import Idealize.ShloMosaic.PureOps.Ideal

noncomputable section

open scoped BigOperators

namespace Cert.RefSide

open Idealize.ShloMosaic Idealize.ShloMosaic.ValueIdx
open Cert.ReferenceIdeal Cert.ReferenceIdeal.Gen Cert.ReferenceIdeal.Read

/-- The side-by-side array of fields at (w, 0): the low field of word w. -/
theorem fields_low (x1 : (⟨S22544384, .i32⟩ : BufTy).Contents (Elt Ideal)) (w : Fin 22544384) :
    val_main_v8 (F := Ideal) x1 (ix2 w (⟨0, by decide⟩ : Fin 2)) = x1 (ix1 w) &&& 15#32 := by
  unfold val_main_v8
  refine (concatenate_pair_apply_left (1 : Fin S22544384x2.rank) _ _
    concatenates_S22544384x1_S22544384x1_S22544384x2_d1 (ix2 w (⟨0, by decide⟩ : Fin 2)) rfl
    (ix2 w (⟨0, Nat.one_pos⟩ : Fin 1)) ?_).trans ?_
  · intro b
    match b with
    | ⟨0, _⟩ => rfl
    | ⟨1, _⟩ => rfl
  · rw [val_main_v6_apply, val_main_v1_apply, val_main_v0_apply, val_main_c_apply]
    show x1 _ &&& 15#32 = x1 (ix1 w) &&& 15#32
    refine congrArg (fun j => x1 j &&& 15#32) ?_
    funext a
    match a with
    | ⟨0, _⟩ => rfl

/-- The side-by-side array of fields at (w, 1): the high field of word w. -/
theorem fields_high (x1 : (⟨S22544384, .i32⟩ : BufTy).Contents (Elt Ideal)) (w : Fin 22544384) :
    val_main_v8 (F := Ideal) x1 (ix2 w (⟨1, by decide⟩ : Fin 2)) = (x1 (ix1 w)).sshiftRight' 4#32 &&& 15#32 := by
  unfold val_main_v8
  refine (concatenate_pair_apply_right (1 : Fin S22544384x2.rank) _ _
    concatenates_S22544384x1_S22544384x1_S22544384x2_d1 (ix2 w (⟨1, by decide⟩ : Fin 2)) rfl rfl
    (ix2 w (⟨0, Nat.one_pos⟩ : Fin 1)) ?_ ?_).trans ?_
  · intro b hb
    match b with
    | ⟨0, _⟩ => rfl
    | ⟨1, _⟩ => exact absurd rfl hb
  · rfl
  · rw [val_main_v7_apply, val_main_v5_apply, val_main_v3_apply, val_main_v2_apply, val_main_c_0_apply,
      val_main_v4_apply, val_main_c_1_apply]
    show IntOp.shrsi .host (x1 _) 4#32 &&& 15#32 = _
    have e : ∀ y : BitVec 32, IntOp.shrsi .host y 4#32 = y.sshiftRight' 4#32 := fun y => by
      unfold IntOp.shrsi
      exact if_pos (by decide)
    rw [e]
    refine congrArg (fun j => (x1 j).sshiftRight' 4#32 &&& 15#32) ?_
    funext a
    match a with
    | ⟨0, _⟩ => rfl

/-- The flat array of fields at element m: field m mod 2 of word m / 2. -/
theorem flat_field (x1 : (⟨S22544384, .i32⟩ : BufTy).Contents (Elt Ideal)) (m : Fin 45088768)
    (hw : m.val / 2 < 22544384) :
    val_main_v9 (F := Ideal) x1 (ix1 m) = Cert.Spec.nibble (x1 (ix1 ⟨m.val / 2, hw⟩)) (m.val % 2 == 1) := by
  rw [val_main_v9_apply]
  have hm : m.val % 2 = 0 ∨ m.val % 2 = 1 := by omega
  rcases hm with h | h
  · have ei : idx_main_v9 (ix1 m) = ix2 (⟨m.val / 2, hw⟩ : Fin 22544384) (⟨0, by decide⟩ : Fin 2) := by
      funext a
      apply Fin.ext
      match a with
      | ⟨0, _⟩ => rfl
      | ⟨1, _⟩ => exact h
    rw [ei, fields_low]
    unfold Cert.Spec.nibble
    rw [h]
    rfl
  · have ei : idx_main_v9 (ix1 m) = ix2 (⟨m.val / 2, hw⟩ : Fin 22544384) (⟨1, by decide⟩ : Fin 2) := by
      funext a
      apply Fin.ext
      match a with
      | ⟨0, _⟩ => rfl
      | ⟨1, _⟩ => exact h
    rw [ei, fields_high]
    unfold Cert.Spec.nibble
    rw [h]
    rfl

/-- The flat dequantized array at element n: the field of element n as a number, times the scale of group n / 8,
    plus that group's offset. -/
theorem flat_weight (x1 : (⟨S22544384, .i32⟩ : BufTy).Contents (Elt Ideal))
    (x2 x3 : (⟨S5636096, .f32⟩ : BufTy).Contents (Elt Ideal)) (n : Fin 45088768)
    (hw : n.val / 2 < 22544384) (hg : n.val / 8 < 5636096) :
    val_main_v18 (F := Ideal) x1 x2 x3 (ix1 n)
      = (((Cert.Spec.nibble (x1 (ix1 ⟨n.val / 2, hw⟩)) (n.val % 2 == 1)).toInt : ℝ) : EReal)
          * x2 (ix1 ⟨n.val / 8, hg⟩) + x3 (ix1 ⟨n.val / 8, hg⟩) := by
  rw [val_main_v18_apply, val_main_v17_apply, val_main_v14_apply, val_main_v11_apply, val_main_v10_apply,
    val_main_v13_apply, val_main_v12_apply, val_main_v16_apply, val_main_v15_apply]
  have e10 : idx_main_v10 (idx_main_v18 (ix1 n)) = ix1 n := by
    funext a
    apply Fin.ext
    match a with
    | ⟨0, _⟩ => show n.val / 8 * 8 + n.val % 8 = n.val; omega
  have e12 : idx_main_v12 (idx_main_v13 (idx_main_v18 (ix1 n))) = ix1 (⟨n.val / 8, hg⟩ : Fin 5636096) := by
    funext a
    apply Fin.ext
    match a with
    | ⟨0, _⟩ => rfl
  have e15 : idx_main_v15 (idx_main_v16 (idx_main_v18 (ix1 n))) = ix1 (⟨n.val / 8, hg⟩ : Fin 5636096) := by
    funext a
    apply Fin.ext
    match a with
    | ⟨0, _⟩ => rfl
  rw [e10, e12, e15, flat_field x1 n hw]
  rfl

/-- Row o, column k of the reference's weight matrix is the specification's weight: flat element o·4096 + k lies
    in group o·512 + k/8 and is field k mod 2 of word o·2048 + k/2. -/
theorem weight_entry (x1 : (⟨S22544384, .i32⟩ : BufTy).Contents (Elt Ideal))
    (x2 x3 : (⟨S5636096, .f32⟩ : BufTy).Contents (Elt Ideal)) (o : Fin 11008) (k : Fin 4096) :
    val_main_v19 (F := Ideal) x1 x2 x3 (ix2 o k) = Cert.Spec.weight x1 x2 x3 o k := by
  have ho : o.val < 11008 := o.isLt
  have hk : k.val < 4096 := k.isLt
  have hn : o.val * 4096 + k.val < 45088768 := by omega
  have h2 : (o.val * 4096 + k.val) / 2 = o.val * 2048 + k.val / 2 := by omega
  have h8 : (o.val * 4096 + k.val) / 8 = o.val * 512 + k.val / 8 := by omega
  have hp : (o.val * 4096 + k.val) % 2 = k.val % 2 := by omega
  have hw : (o.val * 4096 + k.val) / 2 < 22544384 := by omega
  have hg : (o.val * 4096 + k.val) / 8 < 5636096 := by omega
  rw [val_main_v19_apply]
  have e19 : idx_main_v19 (ix2 o k) = ix1 (⟨o.val * 4096 + k.val, hn⟩ : Fin 45088768) := by
    funext a
    apply Fin.ext
    match a with
    | ⟨0, _⟩ => rfl
  rw [e19]
  refine (flat_weight x1 x2 x3 ⟨o.val * 4096 + k.val, hn⟩ hw hg).trans ?_
  have ew : (⟨(o.val * 4096 + k.val) / 2, hw⟩ : Fin 22544384) = ⟨o.val * 2048 + k.val / 2, Cert.Spec.pk_lt o k⟩ :=
    Fin.ext h2
  have eg : (⟨(o.val * 4096 + k.val) / 8, hg⟩ : Fin 5636096) = ⟨o.val * 512 + k.val / 8, Cert.Spec.gr_lt o k⟩ :=
    Fin.ext h8
  show (((Cert.Spec.nibble (x1 (ix1 (⟨(o.val * 4096 + k.val) / 2, hw⟩ : Fin 22544384)))
      ((o.val * 4096 + k.val) % 2 == 1)).toInt : ℝ) : EReal)
        * x2 (ix1 (⟨(o.val * 4096 + k.val) / 8, hg⟩ : Fin 5636096))
      + x3 (ix1 (⟨(o.val * 4096 + k.val) / 8, hg⟩ : Fin 5636096)) = _
  rw [ew, eg, hp]
  rfl

/-- The reference's result is the specification's: at (b, s, o) the contraction of row (b, s) of the input with row o
    of the weight matrix over the 4096 columns, plus the bias at o. -/
theorem ref_result (x0 : (⟨S8x2048x4096, .f32⟩ : BufTy).Contents (Elt Ideal))
    (x1 : (⟨S22544384, .i32⟩ : BufTy).Contents (Elt Ideal))
    (x2 x3 : (⟨S5636096, .f32⟩ : BufTy).Contents (Elt Ideal))
    (x4 : (⟨S11008, .f32⟩ : BufTy).Contents (Elt Ideal)) :
    Cert.ReferenceIdeal.Read.val_main_v23 (F := Ideal) x0 x1 x2 x3 x4 = Cert.Spec.result x0 x1 x2 x3 x4 := by
  funext i
  obtain ⟨b, s, o, rfl⟩ : ∃ (b : Fin 8) (s : Fin 2048) (o : Fin 11008), i = ix3 b s o :=
    ⟨i 0, i 1, i 2, eq_ix3 i⟩
  rw [Cert.Spec.result_apply, val_main_v23_apply, val_main_v20_apply, val_main_v22_apply, val_main_v21_apply]
  unfold Cert.Spec.resultAt
  have e21 : idx_main_v21 (idx_main_v22 (ix3 b s o)) = ix1 o := by
    funext a
    match a with
    | ⟨0, _⟩ => rfl
  rw [e21]
  show (∑ k : Fin 4096, x0 (lidx_main_v20 (ix3 b s o) k) * val_main_v19 (F := Ideal) x1 x2 x3 (ridx_main_v20 (ix3 b s o) k))
      + x4 (ix1 o) = _
  refine congrArg (fun t => t + x4 (ix1 o)) ?_
  refine Finset.sum_congr rfl fun k _ => ?_
  have el : lidx_main_v20 (ix3 b s o) k = ix3 b s k := by
    funext a
    match a with
    | ⟨0, _⟩ => rfl
    | ⟨1, _⟩ => rfl
    | ⟨2, _⟩ => rfl
  have er : ridx_main_v20 (ix3 b s o) k = ix2 o k := by
    funext a
    match a with
    | ⟨0, _⟩ => rfl
    | ⟨1, _⟩ => rfl
  rw [el, er, weight_entry]

end Cert.RefSide

end
-- ==== Proof.lean ====
/-
  The certificate of the int4 group-quantized linear layer: y = x · Wᵀ + b with W dequantized from packed 4-bit fields.

  The kernel program makes two calls. The first dequantizes the weights band by band: every packed word gives an even
  column (its low field) and the odd column after it (its high field), each field read as an integer, multiplied by
  the scale of its group of eight columns and shifted by the group's offset. Host operations interleave the two
  halves, pad the rows to a multiple of 1024 with zeros, and flatten x to a matrix. The second call is the matrix
  product tiled 16 × 11 × 4 with the contraction innermost: an accumulator is zeroed at the first step of a
  contraction, receives one partial product per step, and at the last step the output tile is the accumulator plus
  the bias row. The padded columns are sliced off at the end.

  The reference computes the same weight matrix through flat reshapes and one whole contraction. At the ideal values
  both results are, entry by entry, the sum over the 4096 input columns of x times the dequantized weight, plus the
  bias (`Cert.Spec.result`): on the kernel's side the four partial sums of 1024 terms added onto zero are the whole
  sum, by associativity and commutativity of addition on the extended reals alone, and the conversions between float
  formats are the identity. No finiteness of the inputs is used.

  The three frames: each kernel program is run as its nine segments (host stretches and the two calls), every call's
  body discharged at a generic grid point; the reference is its run read back. The idealized kernel is the kernel's
  own text, so nothing is to be preserved.
-/
import proofs.«429469_j24721831756576_3_alg».proof.Defs
import proofs.«429469_j24721831756576_3_alg».proof.Proof.Gen.Kernel
import proofs.«429469_j24721831756576_3_alg».proof.Proof.Gen.KernelIdeal
import proofs.«429469_j24721831756576_3_alg».proof.Proof.Gen.ReferenceIdeal
import proofs.«429469_j24721831756576_3_alg».proof.Proof.Gen.Pre_finite_inputs
import proofs.«429469_j24721831756576_3_alg».proof.Proof.K.Run
import proofs.«429469_j24721831756576_3_alg».proof.Proof.KI.Run
import proofs.«429469_j24721831756576_3_alg».proof.Proof.KI.Bridge
import proofs.«429469_j24721831756576_3_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Calls.frame_all (F := Bits) m ρ

theorem frame_kernelIdeal : Cert.frame_KernelIdeal := fun m ρ _ => Cert.KernelIdeal.Calls.frame_all (F := Ideal) m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `Cert.Spec.result` of the launch arrays. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ⟨?_, ?_, ?_, ?_, ?_, ?_⟩) (Cert.KernelIdeal.Calls.run_all (F := Ideal) m ρ)
    · exact (h c _ (Cert.KernelIdeal.Calls.mem_uc Cert.KernelIdeal.main_v19 (by decide))).trans (Cert.KernelIdeal.Calls.kernel_result m ρ c)
    · exact (h c _ (Cert.KernelIdeal.Calls.mem_uc Cert.KernelIdeal.main_arg0 (by decide))).trans (Cert.KernelIdeal.Calls.W9_main_arg0 m ρ c)
    · exact (h c _ (Cert.KernelIdeal.Calls.mem_uc Cert.KernelIdeal.main_arg1 (by decide))).trans (Cert.KernelIdeal.Calls.W9_main_arg1 m ρ c)
    · exact (h c _ (Cert.KernelIdeal.Calls.mem_uc Cert.KernelIdeal.main_arg2 (by decide))).trans (Cert.KernelIdeal.Calls.W9_main_arg2 m ρ c)
    · exact (h c _ (Cert.KernelIdeal.Calls.mem_uc Cert.KernelIdeal.main_arg3 (by decide))).trans (Cert.KernelIdeal.Calls.W9_main_arg3 m ρ c)
    · exact (h c _ (Cert.KernelIdeal.Calls.mem_uc Cert.KernelIdeal.main_arg4 (by decide))).trans (Cert.KernelIdeal.Calls.W9_main_arg4 m ρ c)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.ReferenceIdeal.Read.val_main_v23_eq _ _ _ _ _).trans (Cert.RefSide.ref_result _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
